-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v89)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v89) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x600000 : Shape := ⟨2, ![2, 600000]⟩
abbrev S600000 : Shape := ⟨1, ![600000]⟩
abbrev S128x128 : Shape := ⟨2, ![128, 128]⟩
abbrev S384x128 : Shape := ⟨2, ![384, 128]⟩
abbrev S384 : Shape := ⟨1, ![384]⟩
abbrev S1x128 : Shape := ⟨2, ![1, 128]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S600000 : S_.BroadcastsInDim S600000 (![] : Fin 0 → Fin S600000.rank)
  reducesTo_S600000_S_d0 : S600000.ReducesTo [0] S_
  bcast_S_S128x128 : S_.BroadcastsInDim S128x128 (![] : Fin 0 → Fin S128x128.rank)
  reducesTo_S128x128_S_d0_1 : S128x128.ReducesTo [0, 1] S_
  bcast_S_S384x128 : S_.BroadcastsInDim S384x128 (![] : Fin 0 → Fin S384x128.rank)
  reducesTo_S384x128_S_d0_1 : S384x128.ReducesTo [0, 1] S_
  bcast_S_S384 : S_.BroadcastsInDim S384 (![] : Fin 0 → Fin S384.rank)
  reducesTo_S384_S_d0 : S384.ReducesTo [0] S_
  bcast_S_S1x128 : S_.BroadcastsInDim S1x128 (![] : Fin 0 → Fin S1x128.rank)
  reducesTo_S1x128_S_d0_1 : S1x128.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S1x128 .f32) (main_arg9 : FVec F S1 .f32) (main_v33 : IVec S_ 1) : IVec S_ 1 :=
  let main_v34 : FVec F S1x128 .f32 := Host.absf main_arg8
  let main_cst_12 : FVec F S_ .f32 := constant S_ .f32 0x7F800000#32
  let main_v35 : FVec F S1x128 .f32 := broadcastInDim S1x128 ![] bcast_S_S1x128 main_cst_12
  let main_v36 : IVec S1x128 1 := cmpf .olt main_v34 main_v35
  let main_c_13 : IVec S_ 1 := constantI S_ 1 1#1
  let main_v37 : IVec S_ 1 := (fun x v => Host.reduce IntOp.andi x v reducesTo_S1x128_S_d0_1 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg5 : FVec F S384x128 .f32) (main_arg6 : FVec F S384 .f32) (main_arg7 : FVec F S384 .f32) (main_arg8 : FVec F S1x128 .f32) (main_arg9 : FVec F S1 .f32) (main_v13 : IVec S_ 1) (main_v16 : IVec S384x128 1) : IVec S_ 1 :=
  let main_c_5 : IVec S_ 1 := constantI S_ 1 1#1
  let main_v17 : IVec S_ 1 := (fun x v => Host.reduce IntOp.andi x v reducesTo_S384x128_S_d0_1 h_S_) main_v16 main_c_5
  let main_v18 : IVec S_ 1 := andi main_v13 main_v17
  let main_v19 : FVec F S384x128 .f32 := Host.absf main_arg5
  let main_cst_6 : FVec F S_ .f32 := constant S_ .f32 0x7F800000#32
  let main_v20 : FVec F S384x128 .f32 := broadcastInDim S384x128 ![] bcast_S_S384x128 main_cst_6
  let main_v21 : IVec S384x128 1 := cmpf .olt main_v19 main_v20
  let main_c_7 : IVec S_ 1 := constantI S_ 1 1#1
  let main_v22 : IVec S_ 1 := (fun x v => Host.reduce IntOp.andi x v reducesTo_S384x128_S_d0_1 h_S_) main_v21 main_c_7
  let main_v23 : IVec S_ 1 := andi main_v18 main_v22
  let main_v24 : FVec F S384 .f32 := Host.absf main_arg6
  let main_cst_8 : FVec F S_ .f32 := constant S_ .f32 0x7F800000#32
  let main_v25 : FVec F S384 .f32 := broadcastInDim S384 ![] bcast_S_S384 main_cst_8
  let main_v26 : IVec S384 1 := cmpf .olt main_v24 main_v25
  let main_c_9 : IVec S_ 1 := constantI S_ 1 1#1
  let main_v27 : IVec S_ 1 := (fun x v => Host.reduce IntOp.andi x v reducesTo_S384_S_d0 h_S_) main_v26 main_c_9
  let main_v28 : IVec S_ 1 := andi main_v23 main_v27
  let main_v29 : FVec F S384 .f32 := Host.absf main_arg7
  let main_cst_10 : FVec F S_ .f32 := constant S_ .f32 0x7F800000#32
  let main_v30 : FVec F S384 .f32 := broadcastInDim S384 ![] bcast_S_S384 main_cst_10
  let main_v31 : IVec S384 1 := cmpf .olt main_v29 main_v30
  let main_c_11 : IVec S_ 1 := constantI S_ 1 1#1
  let main_v32 : IVec S_ 1 := (fun x v => Host.reduce IntOp.andi x v reducesTo_S384_S_d0 h_S_) main_v31 main_c_11
  let main_v33 : IVec S_ 1 := andi main_v28 main_v32
  fn_part2 (F := F) main_arg8 main_arg9 main_v33

def fn {F : FTy → Type} [FloatOps F] (main_arg0 : FVec F S100000x128 .f32) (main_arg1 : IVec S2x600000 32) (main_arg2 : FVec F S600000 .f32) (main_arg3 : FVec F S128x128 .f32) (main_arg4 : FVec F S384x128 .f32) (main_arg5 : FVec F S384x128 .f32) (main_arg6 : FVec F S384 .f32) (main_arg7 : FVec F S384 .f32) (main_arg8 : FVec F S1x128 .f32) (main_arg9 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S600000 .f32 := Host.absf main_arg2
  let main_cst_0 : FVec F S_ .f32 := constant S_ .f32 0x7F800000#32
  let main_v5 : FVec F S600000 .f32 := broadcastInDim S600000 ![] bcast_S_S600000 main_cst_0
  let main_v6 : IVec S600000 1 := cmpf .olt main_v4 main_v5
  let main_c_1 : IVec S_ 1 := constantI S_ 1 1#1
  let main_v7 : IVec S_ 1 := (fun x v => Host.reduce IntOp.andi x v reducesTo_S600000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S384x128 .f32 := Host.absf main_arg4
  let main_cst_4 : FVec F S_ .f32 := constant S_ .f32 0x7F800000#32
  let main_v15 : FVec F S384x128 .f32 := broadcastInDim S384x128 ![] bcast_S_S384x128 main_cst_4
  let main_v16 : IVec S384x128 1 := cmpf .olt main_v14 main_v15
  fn_part1 (F := F) main_arg5 main_arg6 main_arg7 main_arg8 main_arg9 main_v13 main_v16
-- ==== Kernel.lean ====
abbrev S100000x128 : Shape := ⟨2, ![100000, 128]⟩
abbrev S2x600000 : Shape := ⟨2, ![2, 600000]⟩
abbrev S600000 : Shape := ⟨1, ![600000]⟩
abbrev S128x128 : Shape := ⟨2, ![128, 128]⟩
abbrev S384x128 : Shape := ⟨2, ![384, 128]⟩
abbrev S384 : Shape := ⟨1, ![384]⟩
abbrev S1x128 : Shape := ⟨2, ![1, 128]⟩
abbrev S1 : Shape := ⟨1, ![1]⟩
abbrev S128x384 : Shape := ⟨2, ![128, 384]⟩
abbrev S1x384 : Shape := ⟨2, ![1, 384]⟩
abbrev S_ : Shape := ⟨0, ![]⟩
abbrev S100000 : Shape := ⟨1, ![100000]⟩
abbrev S1x600000 : Shape := ⟨2, ![1, 600000]⟩
abbrev S700000 : Shape := ⟨1, ![700000]⟩
abbrev S700000x1 : Shape := ⟨2, ![700000, 1]⟩
abbrev S5000x128 : Shape := ⟨2, ![5000, 128]⟩
abbrev S700000x128 : Shape := ⟨2, ![700000, 128]⟩
abbrev S100000x1 : Shape := ⟨2, ![100000, 1]⟩
abbrev S5000x1 : Shape := ⟨2, ![5000, 1]⟩
abbrev S128x1 : Shape := ⟨2, ![128, 1]⟩
abbrev S1x1 : Shape := ⟨2, ![1, 1]⟩

abbrev nBuf : Space → Nat
  | .hbm => 119
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S600000, .f32⟩
  | .hbm, ⟨3, _⟩ => ⟨S128x128, .f32⟩
  | .hbm, ⟨4, _⟩ => ⟨S384x128, .f32⟩
  | .hbm, ⟨5, _⟩ => ⟨S384x128, .f32⟩
  | .hbm, ⟨6, _⟩ => ⟨S384, .f32⟩
  | .hbm, ⟨7, _⟩ => ⟨S384, .f32⟩
  | .hbm, ⟨8, _⟩ => ⟨S1x128, .f32⟩
  | .hbm, ⟨9, _⟩ => ⟨S1, .f32⟩
  | .hbm, ⟨10, _⟩ => ⟨S128x384, .f32⟩
  | .hbm, ⟨11, _⟩ => ⟨S128x384, .f32⟩
  | .hbm, ⟨12, _⟩ => ⟨S1x384, .f32⟩
  | .hbm, ⟨13, _⟩ => ⟨S128x384, .f32⟩
  | .hbm, ⟨14, _⟩ => ⟨S128x384, .f32⟩
  | .hbm, ⟨15, _⟩ => ⟨S128x384, .f32⟩
  | .hbm, ⟨16, _⟩ => ⟨S128x384, .f32⟩
  | .hbm, ⟨17, _⟩ => ⟨S1x384, .f32⟩
  | .hbm, ⟨18, _⟩ => ⟨S128x384, .f32⟩
  | .hbm, ⟨19, _⟩ => ⟨S128x384, .f32⟩
  | .hbm, ⟨20, _⟩ => ⟨S128x128, .f32⟩
  | .hbm, ⟨21, _⟩ => ⟨S128x128, .f32⟩
  | .hbm, ⟨22, _⟩ => ⟨S128x128, .f32⟩
  | .hbm, ⟨23, _⟩ => ⟨S128x128, .f32⟩
  | .hbm, ⟨24, _⟩ => ⟨S128x128, .f32⟩
  | .hbm, ⟨25, _⟩ => ⟨S128x128, .f32⟩
  | .hbm, ⟨26, _⟩ => ⟨S128x128, .f32⟩
  | .hbm, ⟨27, _⟩ => ⟨S128x128, .f32⟩
  | .hbm, ⟨28, _⟩ => ⟨S128x128, .f32⟩
  | .hbm, ⟨29, _⟩ => ⟨S_, .f32⟩
  | .hbm, ⟨30, _⟩ => ⟨S128x128, .f32⟩
  | .hbm, ⟨31, _⟩ => ⟨S128x128, .f32⟩
  | .hbm, ⟨32, _⟩ => ⟨S_, .f32⟩
  | .hbm, ⟨33, _⟩ => ⟨S128x128, .f32⟩
  | .hbm, ⟨34, _⟩ => ⟨S128x128, .f32⟩
  | .hbm, ⟨35, _⟩ => ⟨S128x128, .f32⟩
  | .hbm, ⟨36, _⟩ => ⟨S128x128, .f32⟩
  | .hbm, ⟨37, _⟩ => ⟨S128x128, .f32⟩
  | .hbm, ⟨38, _⟩ => ⟨S_, .f32⟩
  | .hbm, ⟨39, _⟩ => ⟨S128x128, .f32⟩
  | .hbm, ⟨40, _⟩ => ⟨S128x128, .f32⟩
  | .hbm, ⟨41, _⟩ => ⟨S_, .f32⟩
  | .hbm, ⟨42, _⟩ => ⟨S128x128, .f32⟩
  | .hbm, ⟨43, _⟩ => ⟨S128x128, .f32⟩
  | .hbm, ⟨44, _⟩ => ⟨S128x128, .f32⟩
  | .hbm, ⟨45, _⟩ => ⟨S128x128, .f32⟩
  | .hbm, ⟨46, _⟩ => ⟨S128x128, .f32⟩
  | .hbm, ⟨47, _⟩ => ⟨S_, .f32⟩
  | .hbm, ⟨48, _⟩ => ⟨S128x128, .f32⟩
  | .hbm, ⟨49, _⟩ => ⟨S128x128, .f32⟩
  | .hbm, ⟨50, _⟩ => ⟨S128x128, .f32⟩
  | .hbm, ⟨51, _⟩ => ⟨S128x128, .f32⟩
  | .hbm, ⟨52, _⟩ => ⟨S128x128, .f32⟩
  | .hbm, ⟨53, _⟩ => ⟨S100000, .i32⟩
  | .hbm, ⟨54, _⟩ => ⟨S1x600000, .i32⟩
  | .hbm, ⟨55, _⟩ => ⟨S600000, .i32⟩
  | .hbm, ⟨56, _⟩ => ⟨S700000, .i32⟩
  | .hbm, ⟨57, _⟩ => ⟨S1x600000, .i32⟩
  | .hbm, ⟨58, _⟩ => ⟨S600000, .i32⟩
  | .hbm, ⟨59, _⟩ => ⟨S700000, .i32⟩
  | .hbm, ⟨60, _⟩ => ⟨S_, .f32⟩
  | .hbm, ⟨61, _⟩ => ⟨S100000, .f32⟩
  | .hbm, ⟨62, _⟩ => ⟨S700000, .f32⟩
  | .hbm, ⟨63, _⟩ => ⟨S_, .f32⟩
  | .hbm, ⟨64, _⟩ => ⟨S100000, .f32⟩
  | .hbm, ⟨65, _⟩ => ⟨S700000x1, .i32⟩
  | .hbm, ⟨66, _⟩ => ⟨S100000, .f32⟩
  | .hbm, ⟨67, _⟩ => ⟨S_, .f32⟩
  | .hbm, ⟨68, _⟩ => ⟨S100000, .f32⟩
  | .hbm, ⟨69, _⟩ => ⟨S100000, .i1⟩
  | .hbm, ⟨70, _⟩ => ⟨S_, .f32⟩
  | .hbm, ⟨71, _⟩ => ⟨S100000, .f32⟩
  | .hbm, ⟨72, _⟩ => ⟨S100000, .f32⟩
  | .hbm, ⟨73, _⟩ => ⟨S100000, .f32⟩
  | .hbm, ⟨74, _⟩ => ⟨S_, .f32⟩
  | .hbm, ⟨75, _⟩ => ⟨S_, .f32⟩
  | .hbm, ⟨76, _⟩ => ⟨S100000, .f32⟩
  | .hbm, ⟨77, _⟩ => ⟨S100000, .f32⟩
  | .hbm, ⟨78, _⟩ => ⟨S_, .i32⟩
  | .hbm, ⟨79, _⟩ => ⟨S700000, .i32⟩
  | .hbm, ⟨80, _⟩ => ⟨S700000, .i1⟩
  | .hbm, ⟨81, _⟩ => ⟨S_, .i32⟩
  | .hbm, ⟨82, _⟩ => ⟨S700000, .i32⟩
  | .hbm, ⟨83, _⟩ => ⟨S700000, .i32⟩
  | .hbm, ⟨84, _⟩ => ⟨S700000, .i32⟩
  | .hbm, ⟨85, _⟩ => ⟨S700000x1, .i32⟩
  | .hbm, ⟨86, _⟩ => ⟨S700000, .f32⟩
  | .hbm, ⟨87, _⟩ => ⟨S700000, .f32⟩
  | .hbm, ⟨88, _⟩ => ⟨S_, .i32⟩
  | .hbm, ⟨89, _⟩ => ⟨S700000, .i32⟩
  | .hbm, ⟨90, _⟩ => ⟨S700000, .i1⟩
  | .hbm, ⟨91, _⟩ => ⟨S_, .i32⟩
  | .hbm, ⟨92, _⟩ => ⟨S700000, .i32⟩
  | .hbm, ⟨93, _⟩ => ⟨S700000, .i32⟩
  | .hbm, ⟨94, _⟩ => ⟨S700000, .i32⟩
  | .hbm, ⟨95, _⟩ => ⟨S700000x1, .i32⟩
  | .hbm, ⟨96, _⟩ => ⟨S700000, .f32⟩
  | .hbm, ⟨97, _⟩ => ⟨S700000, .f32⟩
  | .hbm, ⟨98, _⟩ => ⟨S100000x128, .f32⟩
  | .hbm, ⟨99, _⟩ => ⟨S700000x1, .f32⟩
  | .hbm, ⟨100, _⟩ => ⟨S_, .i32⟩
  | .hbm, ⟨101, _⟩ => ⟨S700000, .i32⟩
  | .hbm, ⟨102, _⟩ => ⟨S700000, .i1⟩
  | .hbm, ⟨103, _⟩ => ⟨S_, .i32⟩
  | .hbm, ⟨104, _⟩ => ⟨S700000, .i32⟩
  | .hbm, ⟨105, _⟩ => ⟨S700000, .i32⟩
  | .hbm, ⟨106, _⟩ => ⟨S700000, .i32⟩
  | .hbm, ⟨107, _⟩ => ⟨S700000x1, .i32⟩
  | .hbm, ⟨108, _⟩ => ⟨S700000x128, .f32⟩
  | .hbm, ⟨109, _⟩ => ⟨S700000x128, .f32⟩
  | .hbm, ⟨110, _⟩ => ⟨S700000x128, .f32⟩
  | .hbm, ⟨111, _⟩ => ⟨S_, .f32⟩
  | .hbm, ⟨112, _⟩ => ⟨S100000x128, .f32⟩
  | .hbm, ⟨113, _⟩ => ⟨S700000x1, .i32⟩
  | .hbm, ⟨114, _⟩ => ⟨S100000x128, .f32⟩
  | .hbm, ⟨115, _⟩ => ⟨S100000x1, .f32⟩
  | .hbm, ⟨116, _⟩ => ⟨S1x1, .f32⟩
  | .hbm, ⟨117, _⟩ => ⟨S100000x1, .f32⟩
  | .hbm, ⟨118, _⟩ => ⟨S100000x1, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x1, .f32⟩
  | .local _ .vmem, ⟨9, _⟩ => ⟨S5000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst : Ref sig .tc := ⟨.hbm, 29, rfl⟩
abbrev main_v19 : Ref sig .tc := ⟨.hbm, 30, rfl⟩
abbrev main_v20 : Ref sig .tc := ⟨.hbm, 31, rfl⟩
abbrev main_cst_0 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_1 : Ref sig .tc := ⟨.hbm, 38, rfl⟩
abbrev main_v26 : Ref sig .tc := ⟨.hbm, 39, rfl⟩
abbrev main_v27 : Ref sig .tc := ⟨.hbm, 40, rfl⟩
abbrev main_cst_2 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_3 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_4 : Ref sig .tc := ⟨.hbm, 60, rfl⟩
abbrev main_v45 : Ref sig .tc := ⟨.hbm, 61, rfl⟩
abbrev main_v46 : Ref sig .tc := ⟨.hbm, 62, rfl⟩
abbrev main_cst_5 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_6 : Ref sig .tc := ⟨.hbm, 67, rfl⟩
abbrev main_v50 : Ref sig .tc := ⟨.hbm, 68, rfl⟩
abbrev main_v51 : Ref sig .tc := ⟨.hbm, 69, rfl⟩
abbrev main_cst_7 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_8 : Ref sig .tc := ⟨.hbm, 74, rfl⟩
abbrev main_call0_v0 : Ref sig .tc := ⟨.hbm, 75, rfl⟩
abbrev main_call0_v1 : Ref sig .tc := ⟨.hbm, 76, rfl⟩
abbrev main_v55 : Ref sig .tc := ⟨.hbm, 77, rfl⟩
abbrev main_c : Ref sig .tc := ⟨.hbm, 78, rfl⟩
abbrev main_v56 : Ref sig .tc := ⟨.hbm, 79, rfl⟩
abbrev main_v57 : Ref sig .tc := ⟨.hbm, 80, rfl⟩
abbrev main_c_9 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_c_10 : Ref sig .tc := ⟨.hbm, 88, rfl⟩
abbrev main_v64 : Ref sig .tc := ⟨.hbm, 89, rfl⟩
abbrev main_v65 : Ref sig .tc := ⟨.hbm, 90, rfl⟩
abbrev main_c_11 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_c_12 : Ref sig .tc := ⟨.hbm, 100, rfl⟩
abbrev main_v74 : Ref sig .tc := ⟨.hbm, 101, rfl⟩
abbrev main_v75 : Ref sig .tc := ⟨.hbm, 102, rfl⟩
abbrev main_c_13 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_cst_14 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  transposes_S384x128_S128x384_1_0 : S384x128.Transposes [1, 0] S128x384
  bcast_S384_S1x384_1 : S384.BroadcastsInDim S1x384 (![1] : Fin 1 → Fin S1x384.rank)
  bcast_S1x384_S128x384_0_1 : S1x384.BroadcastsInDim S128x384 (![0, 1] : Fin 2 → Fin S128x384.rank)
  slices_S128x384_S128x128_0_0 : S128x384.Slices ![0, 0] S128x128
  slices_S128x384_S128x128_0_128 : S128x384.Slices ![0, 128] S128x128
  slices_S128x384_S128x128_0_256 : S128x384.Slices ![0, 256] S128x128
  bcast_S_S128x128 : S_.BroadcastsInDim S128x128 (![] : Fin 0 → Fin S128x128.rank)
  slices_S2x600000_S1x600000_0_0 : S2x600000.Slices ![0, 0] S1x600000
  shapeCasts_S1x600000_S600000 : S1x600000.ShapeCasts S600000
  concatenates_S600000_S100000_S700000_d0 : Shape.Concatenates [S600000, S100000] S700000 0
  slices_S2x600000_S1x600000_1_0 : S2x600000.Slices ![1, 0] S1x600000
  bcast_S_S100000 : S_.BroadcastsInDim S100000 (![] : Fin 0 → Fin S100000.rank)
  bcast_S700000_S700000x1_0 : S700000.BroadcastsInDim S700000x1 (![0] : Fin 1 → Fin S700000x1.rank)
  bcast_S_S700000 : S_.BroadcastsInDim S700000 (![] : Fin 0 → Fin S700000.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S700000x1_S700000x128_0_1 : S700000x1.BroadcastsInDim S700000x128 (![0, 1] : Fin 2 → Fin S700000x128.rank)
  bcast_S_S100000x128 : S_.BroadcastsInDim S100000x128 (![] : Fin 0 → Fin S100000x128.rank)
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  transposes_S1x128_p1_0_S128x1 : S1x128.Transposes [1, 0] S128x1
  inb_S5000x1_S5000x1_0_0 : ∀ a, (![0, 0] : Fin 2 → Nat) a + S5000x1.size a ≤ S5000x1.size a
  h_S5000x1 : 0 < S5000x1.numel
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  dot_S128x128_S128x384_S128x384_1_0_0_1_n_n_wf : DotDims.WF S128x128 S128x384 S128x384 [1] [0] [0] [1] [] []
  scatter_S100000_S700000x1_S700000_n_0_0_1_wf : ScatterDims.WF S100000 S700000x1 S700000 [] [0] [0] 1
  gather_S100000_S700000x1_S700000_n_0_n_n_0_1_1_wf : GatherDims.WF S100000 S700000x1 S700000 [] [0] [] [0] [] 1 ![1]
  dot_S5000x128_S128x128_S5000x128_1_0_0_1_n_n_wf : DotDims.WF S5000x128 S128x128 S5000x128 [1] [0] [0] [1] [] []
  gather_S100000x128_S700000x1_S700000x128_1_0_n_n_0_1_1128_wf : GatherDims.WF S100000x128 S700000x1 S700000x128 [1] [0] [] [0] [] 1 ![1, 128]
  scatter_S100000x128_S700000x1_S700000x128_1_0_0_1_wf : ScatterDims.WF S100000x128 S700000x1 S700000x128 [1] [0] [0] 1
  dot_S5000x128_S128x1_S5000x1_1_0_0_1_n_n_wf : DotDims.WF S5000x128 S128x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)

variable [Facts₀]

def dot_S128x128_S128x384_S128x384_1_0_0_1_n_n : DotDims S128x128 S128x384 S128x384 where
  lhsContracting := [1]
  rhsContracting := [0]
  lhsNonContracting := [0]
  rhsNonContracting := [1]
  lhsBatch := []
  rhsBatch := []
  wf := dot_S128x128_S128x384_S128x384_1_0_0_1_n_n_wf
def scatter_S100000_S700000x1_S700000_n_0_0_1 : ScatterDims S100000 S700000x1 S700000 where
  updateWindowDims := []
  insertedWindowDims := [0]
  scatterDimsToOperandDims := [0]
  indexVectorDim := 1
  wf := scatter_S100000_S700000x1_S700000_n_0_0_1_wf
def gather_S100000_S700000x1_S700000_n_0_n_n_0_1_1 : GatherDims S100000 S700000x1 S700000 where
  offsetDims := []
  collapsedSliceDims := [0]
  operandBatchingDims := []
  startIndicesBatchingDims := []
  startIndexMap := [0]
  indexVectorDim := 1
  sliceSizes := ![1]
  wf := gather_S100000_S700000x1_S700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S700000x1_S700000x128_1_0_n_n_0_1_1128 : GatherDims S100000x128 S700000x1 S700000x128 where
  offsetDims := [1]
  collapsedSliceDims := [0]
  operandBatchingDims := []
  startIndicesBatchingDims := []
  startIndexMap := [0]
  indexVectorDim := 1
  sliceSizes := ![1, 128]
  wf := gather_S100000x128_S700000x1_S700000x128_1_0_n_n_0_1_1128_wf
def scatter_S100000x128_S700000x1_S700000x128_1_0_0_1 : ScatterDims S100000x128 S700000x1 S700000x128 where
  updateWindowDims := [1]
  insertedWindowDims := [0]
  scatterDimsToOperandDims := [0]
  indexVectorDim := 1
  wf := scatter_S100000x128_S700000x1_S700000x128_1_0_0_1_wf
def dot_S5000x128_S128x1_S5000x1_1_0_0_1_n_n : DotDims S5000x128 S128x1 S5000x1 where
  lhsContracting := [1]
  rhsContracting := [0]
  lhsNonContracting := [0]
  rhsNonContracting := [1]
  lhsBatch := []
  rhsBatch := []
  wf := dot_S5000x128_S128x1_S5000x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v37) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v72) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v85) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg8) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v86) S5000x1.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x600000 : Shape := ⟨2, ![2, 600000]⟩
abbrev S600000 : Shape := ⟨1, ![600000]⟩
abbrev S128x128 : Shape := ⟨2, ![128, 128]⟩
abbrev S384x128 : Shape := ⟨2, ![384, 128]⟩
abbrev S384 : Shape := ⟨1, ![384]⟩
abbrev S1x128 : Shape := ⟨2, ![1, 128]⟩
abbrev S1 : Shape := ⟨1, ![1]⟩
abbrev S128x384 : Shape := ⟨2, ![128, 384]⟩
abbrev S1x384 : Shape := ⟨2, ![1, 384]⟩
abbrev S_ : Shape := ⟨0, ![]⟩
abbrev S100000 : Shape := ⟨1, ![100000]⟩
abbrev S1x600000 : Shape := ⟨2, ![1, 600000]⟩
abbrev S700000 : Shape := ⟨1, ![700000]⟩
abbrev S700000x1 : Shape := ⟨2, ![700000, 1]⟩
abbrev S700000x128 : Shape := ⟨2, ![700000, 128]⟩
abbrev S128x1 : Shape := ⟨2, ![128, 1]⟩
abbrev S100000x1 : Shape := ⟨2, ![100000, 1]⟩
abbrev S1x1 : Shape := ⟨2, ![1, 1]⟩

abbrev nBuf : Space → Nat
  | .hbm => 123
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S600000, .f32⟩
  | .hbm, ⟨3, _⟩ => ⟨S128x128, .f32⟩
  | .hbm, ⟨4, _⟩ => ⟨S384x128, .f32⟩
  | .hbm, ⟨5, _⟩ => ⟨S384x128, .f32⟩
  | .hbm, ⟨6, _⟩ => ⟨S384, .f32⟩
  | .hbm, ⟨7, _⟩ => ⟨S384, .f32⟩
  | .hbm, ⟨8, _⟩ => ⟨S1x128, .f32⟩
  | .hbm, ⟨9, _⟩ => ⟨S1, .f32⟩
  | .hbm, ⟨10, _⟩ => ⟨S128x384, .f32⟩
  | .hbm, ⟨11, _⟩ => ⟨S128x384, .f32⟩
  | .hbm, ⟨12, _⟩ => ⟨S1x384, .f32⟩
  | .hbm, ⟨13, _⟩ => ⟨S128x384, .f32⟩
  | .hbm, ⟨14, _⟩ => ⟨S128x384, .f32⟩
  | .hbm, ⟨15, _⟩ => ⟨S128x384, .f32⟩
  | .hbm, ⟨16, _⟩ => ⟨S128x384, .f32⟩
  | .hbm, ⟨17, _⟩ => ⟨S1x384, .f32⟩
  | .hbm, ⟨18, _⟩ => ⟨S128x384, .f32⟩
  | .hbm, ⟨19, _⟩ => ⟨S128x384, .f32⟩
  | .hbm, ⟨20, _⟩ => ⟨S128x128, .f32⟩
  | .hbm, ⟨21, _⟩ => ⟨S128x128, .f32⟩
  | .hbm, ⟨22, _⟩ => ⟨S128x128, .f32⟩
  | .hbm, ⟨23, _⟩ => ⟨S128x128, .f32⟩
  | .hbm, ⟨24, _⟩ => ⟨S128x128, .f32⟩
  | .hbm, ⟨25, _⟩ => ⟨S128x128, .f32⟩
  | .hbm, ⟨26, _⟩ => ⟨S128x128, .f32⟩
  | .hbm, ⟨27, _⟩ => ⟨S128x128, .f32⟩
  | .hbm, ⟨28, _⟩ => ⟨S128x128, .f32⟩
  | .hbm, ⟨29, _⟩ => ⟨S_, .f32⟩
  | .hbm, ⟨30, _⟩ => ⟨S128x128, .f32⟩
  | .hbm, ⟨31, _⟩ => ⟨S128x128, .f32⟩
  | .hbm, ⟨32, _⟩ => ⟨S_, .f32⟩
  | .hbm, ⟨33, _⟩ => ⟨S128x128, .f32⟩
  | .hbm, ⟨34, _⟩ => ⟨S128x128, .f32⟩
  | .hbm, ⟨35, _⟩ => ⟨S128x128, .f32⟩
  | .hbm, ⟨36, _⟩ => ⟨S128x128, .f32⟩
  | .hbm, ⟨37, _⟩ => ⟨S128x128, .f32⟩
  | .hbm, ⟨38, _⟩ => ⟨S_, .f32⟩
  | .hbm, ⟨39, _⟩ => ⟨S128x128, .f32⟩
  | .hbm, ⟨40, _⟩ => ⟨S128x128, .f32⟩
  | .hbm, ⟨41, _⟩ => ⟨S_, .f32⟩
  | .hbm, ⟨42, _⟩ => ⟨S128x128, .f32⟩
  | .hbm, ⟨43, _⟩ => ⟨S128x128, .f32⟩
  | .hbm, ⟨44, _⟩ => ⟨S128x128, .f32⟩
  | .hbm, ⟨45, _⟩ => ⟨S128x128, .f32⟩
  | .hbm, ⟨46, _⟩ => ⟨S128x128, .f32⟩
  | .hbm, ⟨47, _⟩ => ⟨S_, .f32⟩
  | .hbm, ⟨48, _⟩ => ⟨S128x128, .f32⟩
  | .hbm, ⟨49, _⟩ => ⟨S128x128, .f32⟩
  | .hbm, ⟨50, _⟩ => ⟨S128x128, .f32⟩
  | .hbm, ⟨51, _⟩ => ⟨S128x128, .f32⟩
  | .hbm, ⟨52, _⟩ => ⟨S128x128, .f32⟩
  | .hbm, ⟨53, _⟩ => ⟨S100000, .i32⟩
  | .hbm, ⟨54, _⟩ => ⟨S1x600000, .i32⟩
  | .hbm, ⟨55, _⟩ => ⟨S600000, .i32⟩
  | .hbm, ⟨56, _⟩ => ⟨S700000, .i32⟩
  | .hbm, ⟨57, _⟩ => ⟨S1x600000, .i32⟩
  | .hbm, ⟨58, _⟩ => ⟨S600000, .i32⟩
  | .hbm, ⟨59, _⟩ => ⟨S700000, .i32⟩
  | .hbm, ⟨60, _⟩ => ⟨S_, .f32⟩
  | .hbm, ⟨61, _⟩ => ⟨S100000, .f32⟩
  | .hbm, ⟨62, _⟩ => ⟨S700000, .f32⟩
  | .hbm, ⟨63, _⟩ => ⟨S_, .f32⟩
  | .hbm, ⟨64, _⟩ => ⟨S100000, .f32⟩
  | .hbm, ⟨65, _⟩ => ⟨S700000x1, .i32⟩
  | .hbm, ⟨66, _⟩ => ⟨S100000, .f32⟩
  | .hbm, ⟨67, _⟩ => ⟨S_, .f32⟩
  | .hbm, ⟨68, _⟩ => ⟨S100000, .f32⟩
  | .hbm, ⟨69, _⟩ => ⟨S100000, .i1⟩
  | .hbm, ⟨70, _⟩ => ⟨S_, .f32⟩
  | .hbm, ⟨71, _⟩ => ⟨S100000, .f32⟩
  | .hbm, ⟨72, _⟩ => ⟨S100000, .f32⟩
  | .hbm, ⟨73, _⟩ => ⟨S100000, .f32⟩
  | .hbm, ⟨74, _⟩ => ⟨S_, .f32⟩
  | .hbm, ⟨75, _⟩ => ⟨S_, .f32⟩
  | .hbm, ⟨76, _⟩ => ⟨S100000, .f32⟩
  | .hbm, ⟨77, _⟩ => ⟨S100000, .f32⟩
  | .hbm, ⟨78, _⟩ => ⟨S_, .i32⟩
  | .hbm, ⟨79, _⟩ => ⟨S700000, .i32⟩
  | .hbm, ⟨80, _⟩ => ⟨S700000, .i1⟩
  | .hbm, ⟨81, _⟩ => ⟨S_, .i32⟩
  | .hbm, ⟨82, _⟩ => ⟨S700000, .i32⟩
  | .hbm, ⟨83, _⟩ => ⟨S700000, .i32⟩
  | .hbm, ⟨84, _⟩ => ⟨S700000, .i32⟩
  | .hbm, ⟨85, _⟩ => ⟨S700000x1, .i32⟩
  | .hbm, ⟨86, _⟩ => ⟨S700000, .f32⟩
  | .hbm, ⟨87, _⟩ => ⟨S700000, .f32⟩
  | .hbm, ⟨88, _⟩ => ⟨S_, .i32⟩
  | .hbm, ⟨89, _⟩ => ⟨S700000, .i32⟩
  | .hbm, ⟨90, _⟩ => ⟨S700000, .i1⟩
  | .hbm, ⟨91, _⟩ => ⟨S_, .i32⟩
  | .hbm, ⟨92, _⟩ => ⟨S700000, .i32⟩
  | .hbm, ⟨93, _⟩ => ⟨S700000, .i32⟩
  | .hbm, ⟨94, _⟩ => ⟨S700000, .i32⟩
  | .hbm, ⟨95, _⟩ => ⟨S700000x1, .i32⟩
  | .hbm, ⟨96, _⟩ => ⟨S700000, .f32⟩
  | .hbm, ⟨97, _⟩ => ⟨S700000, .f32⟩
  | .hbm, ⟨98, _⟩ => ⟨S100000x128, .f32⟩
  | .hbm, ⟨99, _⟩ => ⟨S700000x1, .f32⟩
  | .hbm, ⟨100, _⟩ => ⟨S_, .i32⟩
  | .hbm, ⟨101, _⟩ => ⟨S700000, .i32⟩
  | .hbm, ⟨102, _⟩ => ⟨S700000, .i1⟩
  | .hbm, ⟨103, _⟩ => ⟨S_, .i32⟩
  | .hbm, ⟨104, _⟩ => ⟨S700000, .i32⟩
  | .hbm, ⟨105, _⟩ => ⟨S700000, .i32⟩
  | .hbm, ⟨106, _⟩ => ⟨S700000, .i32⟩
  | .hbm, ⟨107, _⟩ => ⟨S700000x1, .i32⟩
  | .hbm, ⟨108, _⟩ => ⟨S700000x128, .f32⟩
  | .hbm, ⟨109, _⟩ => ⟨S700000x128, .f32⟩
  | .hbm, ⟨110, _⟩ => ⟨S700000x128, .f32⟩
  | .hbm, ⟨111, _⟩ => ⟨S_, .f32⟩
  | .hbm, ⟨112, _⟩ => ⟨S100000x128, .f32⟩
  | .hbm, ⟨113, _⟩ => ⟨S700000x1, .i32⟩
  | .hbm, ⟨114, _⟩ => ⟨S100000x128, .f32⟩
  | .hbm, ⟨115, _⟩ => ⟨S_, .f32⟩
  | .hbm, ⟨116, _⟩ => ⟨S100000x128, .f32⟩
  | .hbm, ⟨117, _⟩ => ⟨S100000x128, .f32⟩
  | .hbm, ⟨118, _⟩ => ⟨S128x1, .f32⟩
  | .hbm, ⟨119, _⟩ => ⟨S100000x1, .f32⟩
  | .hbm, ⟨120, _⟩ => ⟨S1x1, .f32⟩
  | .hbm, ⟨121, _⟩ => ⟨S100000x1, .f32⟩
  | .hbm, ⟨122, _⟩ => ⟨S100000x1, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst : Ref sig .tc := ⟨.hbm, 29, rfl⟩
abbrev main_v19 : Ref sig .tc := ⟨.hbm, 30, rfl⟩
abbrev main_v20 : Ref sig .tc := ⟨.hbm, 31, rfl⟩
abbrev main_cst_0 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_1 : Ref sig .tc := ⟨.hbm, 38, rfl⟩
abbrev main_v26 : Ref sig .tc := ⟨.hbm, 39, rfl⟩
abbrev main_v27 : Ref sig .tc := ⟨.hbm, 40, rfl⟩
abbrev main_cst_2 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_3 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_4 : Ref sig .tc := ⟨.hbm, 60, rfl⟩
abbrev main_v45 : Ref sig .tc := ⟨.hbm, 61, rfl⟩
abbrev main_v46 : Ref sig .tc := ⟨.hbm, 62, rfl⟩
abbrev main_cst_5 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_6 : Ref sig .tc := ⟨.hbm, 67, rfl⟩
abbrev main_v50 : Ref sig .tc := ⟨.hbm, 68, rfl⟩
abbrev main_v51 : Ref sig .tc := ⟨.hbm, 69, rfl⟩
abbrev main_cst_7 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_8 : Ref sig .tc := ⟨.hbm, 74, rfl⟩
abbrev main_call0_v0 : Ref sig .tc := ⟨.hbm, 75, rfl⟩
abbrev main_call0_v1 : Ref sig .tc := ⟨.hbm, 76, rfl⟩
abbrev main_v55 : Ref sig .tc := ⟨.hbm, 77, rfl⟩
abbrev main_c : Ref sig .tc := ⟨.hbm, 78, rfl⟩
abbrev main_v56 : Ref sig .tc := ⟨.hbm, 79, rfl⟩
abbrev main_v57 : Ref sig .tc := ⟨.hbm, 80, rfl⟩
abbrev main_c_9 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_c_10 : Ref sig .tc := ⟨.hbm, 88, rfl⟩
abbrev main_v64 : Ref sig .tc := ⟨.hbm, 89, rfl⟩
abbrev main_v65 : Ref sig .tc := ⟨.hbm, 90, rfl⟩
abbrev main_c_11 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_c_12 : Ref sig .tc := ⟨.hbm, 100, rfl⟩
abbrev main_v74 : Ref sig .tc := ⟨.hbm, 101, rfl⟩
abbrev main_v75 : Ref sig .tc := ⟨.hbm, 102, rfl⟩
abbrev main_c_13 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_cst_14 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_call1_cst : Ref sig .tc := ⟨.hbm, 115, rfl⟩
abbrev main_call1_v0 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩

abbrev nD : Nat := 1
abbrev τ : Topo := Topo.v7x

variable {F : FTy → Type} [FloatOps F]

class Facts₀ : Prop where
  transposes_S384x128_S128x384_1_0 : S384x128.Transposes [1, 0] S128x384
  bcast_S384_S1x384_1 : S384.BroadcastsInDim S1x384 (![1] : Fin 1 → Fin S1x384.rank)
  bcast_S1x384_S128x384_0_1 : S1x384.BroadcastsInDim S128x384 (![0, 1] : Fin 2 → Fin S128x384.rank)
  slices_S128x384_S128x128_0_0 : S128x384.Slices ![0, 0] S128x128
  slices_S128x384_S128x128_0_128 : S128x384.Slices ![0, 128] S128x128
  slices_S128x384_S128x128_0_256 : S128x384.Slices ![0, 256] S128x128
  bcast_S_S128x128 : S_.BroadcastsInDim S128x128 (![] : Fin 0 → Fin S128x128.rank)
  slices_S2x600000_S1x600000_0_0 : S2x600000.Slices ![0, 0] S1x600000
  shapeCasts_S1x600000_S600000 : S1x600000.ShapeCasts S600000
  concatenates_S600000_S100000_S700000_d0 : Shape.Concatenates [S600000, S100000] S700000 0
  slices_S2x600000_S1x600000_1_0 : S2x600000.Slices ![1, 0] S1x600000
  bcast_S_S100000 : S_.BroadcastsInDim S100000 (![] : Fin 0 → Fin S100000.rank)
  bcast_S700000_S700000x1_0 : S700000.BroadcastsInDim S700000x1 (![0] : Fin 1 → Fin S700000x1.rank)
  bcast_S_S700000 : S_.BroadcastsInDim S700000 (![] : Fin 0 → Fin S700000.rank)
  bcast_S700000x1_S700000x128_0_1 : S700000x1.BroadcastsInDim S700000x128 (![0, 1] : Fin 2 → Fin S700000x128.rank)
  bcast_S_S100000x128 : S_.BroadcastsInDim S100000x128 (![] : Fin 0 → Fin S100000x128.rank)
  transposes_S1x128_S128x1_1_0 : S1x128.Transposes [1, 0] S128x1
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  dot_S128x128_S128x384_S128x384_1_0_0_1_n_n_wf : DotDims.WF S128x128 S128x384 S128x384 [1] [0] [0] [1] [] []
  scatter_S100000_S700000x1_S700000_n_0_0_1_wf : ScatterDims.WF S100000 S700000x1 S700000 [] [0] [0] 1
  gather_S100000_S700000x1_S700000_n_0_n_n_0_1_1_wf : GatherDims.WF S100000 S700000x1 S700000 [] [0] [] [0] [] 1 ![1]
  dot_S100000x128_S128x128_S100000x128_1_0_0_1_n_n_wf : DotDims.WF S100000x128 S128x128 S100000x128 [1] [0] [0] [1] [] []
  gather_S100000x128_S700000x1_S700000x128_1_0_n_n_0_1_1128_wf : GatherDims.WF S100000x128 S700000x1 S700000x128 [1] [0] [] [0] [] 1 ![1, 128]
  scatter_S100000x128_S700000x1_S700000x128_1_0_0_1_wf : ScatterDims.WF S100000x128 S700000x1 S700000x128 [1] [0] [0] 1
  dot_S100000x128_S128x1_S100000x1_1_0_0_1_n_n_wf : DotDims.WF S100000x128 S128x1 S100000x1 [1] [0] [0] [1] [] []

variable [Facts₀]

def dot_S128x128_S128x384_S128x384_1_0_0_1_n_n : DotDims S128x128 S128x384 S128x384 where
  lhsContracting := [1]
  rhsContracting := [0]
  lhsNonContracting := [0]
  rhsNonContracting := [1]
  lhsBatch := []
  rhsBatch := []
  wf := dot_S128x128_S128x384_S128x384_1_0_0_1_n_n_wf
def scatter_S100000_S700000x1_S700000_n_0_0_1 : ScatterDims S100000 S700000x1 S700000 where
  updateWindowDims := []
  insertedWindowDims := [0]
  scatterDimsToOperandDims := [0]
  indexVectorDim := 1
  wf := scatter_S100000_S700000x1_S700000_n_0_0_1_wf
def gather_S100000_S700000x1_S700000_n_0_n_n_0_1_1 : GatherDims S100000 S700000x1 S700000 where
  offsetDims := []
  collapsedSliceDims := [0]
  operandBatchingDims := []
  startIndicesBatchingDims := []
  startIndexMap := [0]
  indexVectorDim := 1
  sliceSizes := ![1]
  wf := gather_S100000_S700000x1_S700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S700000x1_S700000x128_1_0_n_n_0_1_1128 : GatherDims S100000x128 S700000x1 S700000x128 where
  offsetDims := [1]
  collapsedSliceDims := [0]
  operandBatchingDims := []
  startIndicesBatchingDims := []
  startIndexMap := [0]
  indexVectorDim := 1
  sliceSizes := ![1, 128]
  wf := gather_S100000x128_S700000x1_S700000x128_1_0_n_n_0_1_1128_wf
def scatter_S100000x128_S700000x1_S700000x128_1_0_0_1 : ScatterDims S100000x128 S700000x1 S700000x128 where
  updateWindowDims := [1]
  insertedWindowDims := [0]
  scatterDimsToOperandDims := [0]
  indexVectorDim := 1
  wf := scatter_S100000x128_S700000x1_S700000x128_1_0_0_1_wf
def dot_S100000x128_S128x1_S100000x1_1_0_0_1_n_n : DotDims S100000x128 S128x1 S100000x1 where
  lhsContracting := [1]
  rhsContracting := [0]
  lhsNonContracting := [0]
  rhsNonContracting := [1]
  lhsBatch := []
  rhsBatch := []
  wf := dot_S100000x128_S128x1_S100000x1_1_0_0_1_n_n_wf

class Facts : Prop extends Facts₀ where

variable [Facts]
-- ==== Proof.RefSide.lean ====
/-
  The plain program's result, two ways.

  Its run ends with every buffer at the fold of its 113 operations over the launch contents. At the result buffer that
  fold, opened, is the one long term of the arguments the run names — so a fact stated of the fold at the result buffer
  is a fact of the run's result. (Stated for any float values: the operations stay unopened.)
-/
import proofs.«119055_j80504866996300_1_alg».proof.Proof.Gen.ReferenceIdeal.Run

noncomputable section

namespace Cert.ReferenceIdeal.RefSide

open Cert.ReferenceIdeal Cert.ReferenceIdeal.Gen Cert.ReferenceIdeal.Value
open Idealize.ShloMosaic Idealize.ShloMosaic.TcCoe Idealize.SL.Sem Idealize.ShloMosaic.StableHlo

variable {F : FTy → Type} [FloatOps F]

set_option maxRecDepth 8192 in
set_option maxHeartbeats 8000000 in
/-- The fold of the operations at the result buffer is the run's result term. -/
theorem fold_eq (m : (ℓ : Loc nD τ sig) → Buf (Elt F) ℓ) (c : Dev nD) :
    StableHlo.after (ops (F := F)) (launchContents m c) (Proc.devRef .tc main_v91) = res_main_v91 m c := by
  after_results_simp <;> rfl <;> (unfold res_main_v91; rfl)

end Cert.ReferenceIdeal.RefSide

end
-- ==== Proof.HostSteps.lean ====
/-
  The host operations the two programs share, compared stretch by stretch, for any float values.

  The kernel program's @main is the plain program's list of operations with a pipeline where the plain program has
  `dot_general` (once plain, once after a clamp and a transpose). Everything else — the recurrent cell's step that evolves
  the layer's weight, the graph normalisation (self loops appended to the edge lists, weighted in-degree by scatter-add,
  inverse square roots gathered at both ends of each edge), the message passing (gather at the sources, scale,
  scatter-add at the targets) and the bias — is the same operation on the same operands. Each lemma below takes one
  stretch of the kernel program's operations, over any contents that agree with the plain program's fold on what the
  stretch reads, and shows that what it writes is what the plain program's fold holds in the corresponding buffer.
  Nothing is computed: both sides are opened to the same tree of operations and compared. The float operations stay
  unopened (any `F`), so the comparison never looks inside an `exp` or a `scatter`.
-/
import proofs.«119055_j80504866996300_1_alg».proof.Proof.Gen.KernelIdeal.Launch
import proofs.«119055_j80504866996300_1_alg».proof.Proof.Gen.ReferenceIdeal.Run

set_option maxRecDepth 16384

noncomputable section

namespace Cert.HostSteps

open Idealize.ShloMosaic Idealize.ShloMosaic.TcCoe Idealize.SL.Sem Idealize.ShloMosaic.StableHlo

/-- Two arrays joined along an axis, as a plain function of the two. -/
def join2 {α : Type} {t s₁ s₂ : Shape} (a : Fin t.rank) (h : Shape.Concatenates [s₁, s₂] t a)
    (x : s₁.Idx → α) (y : s₂.Idx → α) : t.Idx → α :=
  concatenate t a [⟨s₁, x⟩, ⟨s₂, y⟩] h

/-- A two-operand concatenation is `join2` of its operands (so that a rewriting pass reaches the operands). -/
theorem join2_def {α : Type} {t s₁ s₂ : Shape} (a : Fin t.rank) (h : Shape.Concatenates [s₁, s₂] t a)
    (x : s₁.Idx → α) (y : s₂.Idx → α) : concatenate t a [⟨s₁, x⟩, ⟨s₂, y⟩] h = join2 a h x y := rfl

/-- The operations' results opened in one rewriting pass (the library's result lemmas), two-operand concatenations
    turned into `join2` on the way so that their operands are opened too. -/
macro "open_results" : tactic =>
  `(tactic| (simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', join2_def]))

variable {F : FTy → Type} [FloatOps F]

/-- The two programs' launch contents (of one core) agree on the ten arguments, paired by position. -/
structure Agree (VK : Valuation Cert.KernelIdeal.τ Cert.KernelIdeal.sig (Elt F)) (VR : Valuation Cert.ReferenceIdeal.τ Cert.ReferenceIdeal.sig (Elt F)) : Prop where
  a0 : VK (Proc.devRef .tc Cert.KernelIdeal.main_arg0) = VR (Proc.devRef .tc Cert.ReferenceIdeal.main_arg0)
  a1 : VK (Proc.devRef .tc Cert.KernelIdeal.main_arg1) = VR (Proc.devRef .tc Cert.ReferenceIdeal.main_arg1)
  a2 : VK (Proc.devRef .tc Cert.KernelIdeal.main_arg2) = VR (Proc.devRef .tc Cert.ReferenceIdeal.main_arg2)
  a3 : VK (Proc.devRef .tc Cert.KernelIdeal.main_arg3) = VR (Proc.devRef .tc Cert.ReferenceIdeal.main_arg3)
  a4 : VK (Proc.devRef .tc Cert.KernelIdeal.main_arg4) = VR (Proc.devRef .tc Cert.ReferenceIdeal.main_arg4)
  a5 : VK (Proc.devRef .tc Cert.KernelIdeal.main_arg5) = VR (Proc.devRef .tc Cert.ReferenceIdeal.main_arg5)
  a6 : VK (Proc.devRef .tc Cert.KernelIdeal.main_arg6) = VR (Proc.devRef .tc Cert.ReferenceIdeal.main_arg6)
  a7 : VK (Proc.devRef .tc Cert.KernelIdeal.main_arg7) = VR (Proc.devRef .tc Cert.ReferenceIdeal.main_arg7)
  a8 : VK (Proc.devRef .tc Cert.KernelIdeal.main_arg8) = VR (Proc.devRef .tc Cert.ReferenceIdeal.main_arg8)
  a9 : VK (Proc.devRef .tc Cert.KernelIdeal.main_arg9) = VR (Proc.devRef .tc Cert.ReferenceIdeal.main_arg9)

variable (VK : Valuation Cert.KernelIdeal.τ Cert.KernelIdeal.sig (Elt F)) (VR : Valuation Cert.ReferenceIdeal.τ Cert.ReferenceIdeal.sig (Elt F))

/-! ## The stretch before the first pipeline (88 operations), from the launch contents -/

set_option maxHeartbeats 8000000 in
/-- The evolved weight `W` (the recurrent cell's step on `W0`). -/
theorem weight (h : Agree VK VR) : StableHlo.after (Cert.KernelIdeal.Gen.hostOps0_2 (F := F)) (StableHlo.after (Cert.KernelIdeal.Gen.hostOps0_1 (F := F)) (StableHlo.after (Cert.KernelIdeal.Gen.hostOps0 (F := F)) VK)) (Proc.devRef .tc Cert.KernelIdeal.main_v37) = StableHlo.after (Cert.ReferenceIdeal.Value.ops (F := F)) VR (Proc.devRef .tc Cert.ReferenceIdeal.main_v37) := by
  dsimp only [Cert.KernelIdeal.Gen.hostOps0, Cert.KernelIdeal.Gen.hostOps0_1, Cert.KernelIdeal.Gen.hostOps0_2, Cert.ReferenceIdeal.Value.ops]
  open_results
  simp only [h.a3, h.a4, h.a5, h.a6, h.a7]
  rfl

set_option maxHeartbeats 8000000 in
/-- The per-edge coefficient `dinv[row] · w · dinv[col]` over the 700000 edges and self loops. -/
theorem coefficient (h : Agree VK VR) : StableHlo.after (Cert.KernelIdeal.Gen.hostOps0_2 (F := F)) (StableHlo.after (Cert.KernelIdeal.Gen.hostOps0_1 (F := F)) (StableHlo.after (Cert.KernelIdeal.Gen.hostOps0 (F := F)) VK)) (Proc.devRef .tc Cert.KernelIdeal.main_v71) = StableHlo.after (Cert.ReferenceIdeal.Value.ops (F := F)) VR (Proc.devRef .tc Cert.ReferenceIdeal.main_v71) := by
  dsimp only [Cert.KernelIdeal.Gen.hostOps0, Cert.KernelIdeal.Gen.hostOps0_1, Cert.KernelIdeal.Gen.hostOps0_2, Cert.ReferenceIdeal.Value.ops]
  open_results
  simp only [h.a1, h.a2]
  rfl

set_option maxHeartbeats 8000000 in
/-- The source index list: the edges' sources, then every node once. -/
theorem sources (h : Agree VK VR) : StableHlo.after (Cert.KernelIdeal.Gen.hostOps0_2 (F := F)) (StableHlo.after (Cert.KernelIdeal.Gen.hostOps0_1 (F := F)) (StableHlo.after (Cert.KernelIdeal.Gen.hostOps0 (F := F)) VK)) (Proc.devRef .tc Cert.KernelIdeal.main_v41) = StableHlo.after (Cert.ReferenceIdeal.Value.ops (F := F)) VR (Proc.devRef .tc Cert.ReferenceIdeal.main_v41) := by
  dsimp only [Cert.KernelIdeal.Gen.hostOps0, Cert.KernelIdeal.Gen.hostOps0_1, Cert.KernelIdeal.Gen.hostOps0_2, Cert.ReferenceIdeal.Value.ops]
  open_results
  simp only [h.a1]
  rfl

set_option maxHeartbeats 8000000 in
/-- The target index list: the edges' targets, then every node once. -/
theorem targets (h : Agree VK VR) : StableHlo.after (Cert.KernelIdeal.Gen.hostOps0_2 (F := F)) (StableHlo.after (Cert.KernelIdeal.Gen.hostOps0_1 (F := F)) (StableHlo.after (Cert.KernelIdeal.Gen.hostOps0 (F := F)) VK)) (Proc.devRef .tc Cert.KernelIdeal.main_v44) = StableHlo.after (Cert.ReferenceIdeal.Value.ops (F := F)) VR (Proc.devRef .tc Cert.ReferenceIdeal.main_v44) := by
  dsimp only [Cert.KernelIdeal.Gen.hostOps0, Cert.KernelIdeal.Gen.hostOps0_1, Cert.KernelIdeal.Gen.hostOps0_2, Cert.ReferenceIdeal.Value.ops]
  open_results
  simp only [h.a1]
  rfl

set_option maxHeartbeats 8000000 in
/-- No operation of the stretch writes an argument: the node features, the classifier row and its bias are as launched. -/
theorem kept : StableHlo.after (Cert.KernelIdeal.Gen.hostOps0_2 (F := F)) (StableHlo.after (Cert.KernelIdeal.Gen.hostOps0_1 (F := F)) (StableHlo.after (Cert.KernelIdeal.Gen.hostOps0 (F := F)) VK)) (Proc.devRef .tc Cert.KernelIdeal.main_arg0) = VK (Proc.devRef .tc Cert.KernelIdeal.main_arg0)
    ∧ StableHlo.after (Cert.KernelIdeal.Gen.hostOps0_2 (F := F)) (StableHlo.after (Cert.KernelIdeal.Gen.hostOps0_1 (F := F)) (StableHlo.after (Cert.KernelIdeal.Gen.hostOps0 (F := F)) VK)) (Proc.devRef .tc Cert.KernelIdeal.main_arg8) = VK (Proc.devRef .tc Cert.KernelIdeal.main_arg8)
    ∧ StableHlo.after (Cert.KernelIdeal.Gen.hostOps0_2 (F := F)) (StableHlo.after (Cert.KernelIdeal.Gen.hostOps0_1 (F := F)) (StableHlo.after (Cert.KernelIdeal.Gen.hostOps0 (F := F)) VK)) (Proc.devRef .tc Cert.KernelIdeal.main_arg9) = VK (Proc.devRef .tc Cert.KernelIdeal.main_arg9) := by
  dsimp only [Cert.KernelIdeal.Gen.hostOps0, Cert.KernelIdeal.Gen.hostOps0_1, Cert.KernelIdeal.Gen.hostOps0_2]
  refine ⟨?_, ?_, ?_⟩ <;> open_results

/-! ## The plain program's operation where the first pipeline stands -/

set_option maxHeartbeats 8000000 in
/-- In the plain program's fold, `h` is the `dot_general` of the node features and the evolved weight. -/
theorem product_def :
    Host.dotGeneral Cert.ReferenceIdeal.dot_S100000x128_S128x128_S100000x128_1_0_0_1_n_n none (VR (Proc.devRef .tc Cert.ReferenceIdeal.main_arg0)) (StableHlo.after (Cert.ReferenceIdeal.Value.ops (F := F)) VR (Proc.devRef .tc Cert.ReferenceIdeal.main_v37))
      = StableHlo.after (Cert.ReferenceIdeal.Value.ops (F := F)) VR (Proc.devRef .tc Cert.ReferenceIdeal.main_v72) := by
  dsimp only [Cert.ReferenceIdeal.Value.ops]
  open_results

/-! ## The message-passing stretch between the pipelines (16 operations), from any contents -/

variable (V4 : Valuation Cert.KernelIdeal.τ Cert.KernelIdeal.sig (Elt F))

set_option maxHeartbeats 8000000 in
/-- The aggregate: `h` gathered at the sources, scaled by the edge coefficient, scatter-added at the targets. -/
theorem aggregate
    (hh : V4 (Proc.devRef .tc Cert.KernelIdeal.main_v72) = StableHlo.after (Cert.ReferenceIdeal.Value.ops (F := F)) VR (Proc.devRef .tc Cert.ReferenceIdeal.main_v72))
    (hc : V4 (Proc.devRef .tc Cert.KernelIdeal.main_v71) = StableHlo.after (Cert.ReferenceIdeal.Value.ops (F := F)) VR (Proc.devRef .tc Cert.ReferenceIdeal.main_v71))
    (hs : V4 (Proc.devRef .tc Cert.KernelIdeal.main_v41) = StableHlo.after (Cert.ReferenceIdeal.Value.ops (F := F)) VR (Proc.devRef .tc Cert.ReferenceIdeal.main_v41))
    (ht : V4 (Proc.devRef .tc Cert.KernelIdeal.main_v44) = StableHlo.after (Cert.ReferenceIdeal.Value.ops (F := F)) VR (Proc.devRef .tc Cert.ReferenceIdeal.main_v44)) :
    StableHlo.after (Cert.KernelIdeal.Gen.hostOps1 (F := F)) V4 (Proc.devRef .tc Cert.KernelIdeal.main_v85) = StableHlo.after (Cert.ReferenceIdeal.Value.ops (F := F)) VR (Proc.devRef .tc Cert.ReferenceIdeal.main_v85) := by
  dsimp only [Cert.KernelIdeal.Gen.hostOps1]
  open_results
  simp only [hh, hc, hs, ht]
  dsimp only [Cert.ReferenceIdeal.Value.ops]
  open_results
  rfl

set_option maxHeartbeats 8000000 in
/-- The stretch writes neither the classifier row nor its bias. -/
theorem aggregate_kept :
    StableHlo.after (Cert.KernelIdeal.Gen.hostOps1 (F := F)) V4 (Proc.devRef .tc Cert.KernelIdeal.main_arg8) = V4 (Proc.devRef .tc Cert.KernelIdeal.main_arg8)
    ∧ StableHlo.after (Cert.KernelIdeal.Gen.hostOps1 (F := F)) V4 (Proc.devRef .tc Cert.KernelIdeal.main_arg9) = V4 (Proc.devRef .tc Cert.KernelIdeal.main_arg9) := by
  dsimp only [Cert.KernelIdeal.Gen.hostOps1]
  refine ⟨?_, ?_⟩ <;> open_results

/-! ## The plain program's operations where the second pipeline stands -/

set_option maxHeartbeats 8000000 in
/-- In the plain program's fold, the head is the `dot_general` of the clamped aggregate and the column of the classifier row. -/
theorem head_def :
    Host.dotGeneral Cert.ReferenceIdeal.dot_S100000x128_S128x1_S100000x1_1_0_0_1_n_n none
        (maximumf (StableHlo.after (Cert.ReferenceIdeal.Value.ops (F := F)) VR (Proc.devRef .tc Cert.ReferenceIdeal.main_v85))
          (broadcastInDim Cert.ReferenceIdeal.S100000x128 ![] Cert.ReferenceIdeal.Facts₀.bcast_S_S100000x128 (constant Cert.ReferenceIdeal.S_ .f32 0x00000000#32)))
        (transpose Cert.ReferenceIdeal.S128x1 [1, 0] (VR (Proc.devRef .tc Cert.ReferenceIdeal.main_arg8)) Cert.ReferenceIdeal.Facts₀.transposes_S1x128_S128x1_1_0)
      = StableHlo.after (Cert.ReferenceIdeal.Value.ops (F := F)) VR (Proc.devRef .tc Cert.ReferenceIdeal.main_v88) := by
  dsimp only [Cert.ReferenceIdeal.Value.ops]
  open_results
  rfl

/-! ## The last stretch (3 operations): the bias added, from any contents -/

variable (V6 : Valuation Cert.KernelIdeal.τ Cert.KernelIdeal.sig (Elt F))

set_option maxHeartbeats 8000000 in
theorem biased
    (hd : V6 (Proc.devRef .tc Cert.KernelIdeal.main_v86) = StableHlo.after (Cert.ReferenceIdeal.Value.ops (F := F)) VR (Proc.devRef .tc Cert.ReferenceIdeal.main_v88))
    (hb : V6 (Proc.devRef .tc Cert.KernelIdeal.main_arg9) = VR (Proc.devRef .tc Cert.ReferenceIdeal.main_arg9)) :
    StableHlo.after (Cert.KernelIdeal.Gen.hostOps2 (F := F)) V6 (Proc.devRef .tc Cert.KernelIdeal.main_v89) = StableHlo.after (Cert.ReferenceIdeal.Value.ops (F := F)) VR (Proc.devRef .tc Cert.ReferenceIdeal.main_v91) := by
  dsimp only [Cert.KernelIdeal.Gen.hostOps2]
  open_results
  simp only [hd, hb]
  dsimp only [Cert.ReferenceIdeal.Value.ops]
  open_results

end Cert.HostSteps

end
-- ==== Proof.LibAffineRows.lean ====
/-
  A dense layer read row by row, at the ideal values.

  A kernel that tiles the rows of a matrix `X` computes, on each tile `xb`, the product `xb · w` by a matrix unit
  (operands narrowed to bf16, accumulated into zeros) and adds a bias row kept as a `[1, M]` block; the plain program
  computes `X · w` by one `dot_general` and adds the bias vector `[M]` broadcast over the rows. Over the extended reals
  narrowing is the identity and both products are the textbook sum over the contracted index, so row `r` of the tile's
  result is row `n r` of the whole result as soon as row `r` of the tile is row `n r` of `X`
  (`affine_rows`), and the same after a `tanh` (`tanh_affine_rows`). Nothing here depends on the sizes.
-/
import Idealize.ShloMosaic.Lib.ValueIdx
import Idealize.ShloMosaic.Lib.ValueLayout
import Idealize.ShloMosaic.Lib.Pipeline.Value
import Idealize.ShloMosaic.PureOps.Ideal.Laws

noncomputable section

namespace Cert.Lib

open Idealize.ShloMosaic Idealize.ShloMosaic.ValueIdx

/-- The dimension numbers `d` describe the plain product of an `[R, K]` by a `[K, M]` matrix: one contracted index of
    extent `K`, which is the left operand's column and the right operand's row; the result's row is the left operand's
    row and its column the right operand's column. -/
structure PlainDot {R K M : ℕ} (d : DotDims ⟨2, ![R, K]⟩ ⟨2, ![K, M]⟩ ⟨2, ![R, M]⟩) : Prop where
  rank : d.contr.rank = 1
  size : d.contr.size ⟨0, by omega⟩ = K
  l0 : ∀ (i : (⟨2, ![R, M]⟩ : Shape).Idx) (q : d.contr.Idx), (d.lhsIdx i q 0).val = (i 0).val
  l1 : ∀ (i : (⟨2, ![R, M]⟩ : Shape).Idx) (q : d.contr.Idx), (d.lhsIdx i q 1).val = (q ⟨0, by omega⟩).val
  r0 : ∀ (i : (⟨2, ![R, M]⟩ : Shape).Idx) (q : d.contr.Idx), (d.rhsIdx i q 0).val = (q ⟨0, by omega⟩).val
  r1 : ∀ (i : (⟨2, ![R, M]⟩ : Shape).Idx) (q : d.contr.Idx), (d.rhsIdx i q 1).val = (i 1).val

variable {R K M : ℕ}

/-- The sum over the record's contraction index is the sum over `k < K` of `x (r, k) · w (k, c)`. -/
theorem PlainDot.sum_eq {d : DotDims ⟨2, ![R, K]⟩ ⟨2, ![K, M]⟩ ⟨2, ![R, M]⟩} (h : PlainDot d)
    (x : (⟨2, ![R, K]⟩ : Shape).Idx → EReal) (w : (⟨2, ![K, M]⟩ : Shape).Idx → EReal) (r : Fin R) (c : Fin M) :
    ∑ k : d.contr.Idx, x (d.lhsIdx (ix2 r c) k) * w (d.rhsIdx (ix2 r c) k) = ∑ k : Fin K, x (ix2 r k) * w (ix2 k c) := by
  rw [← Equiv.sum_comp (contrEquiv1 d K h.rank h.size).symm]
  refine Finset.sum_congr rfl fun k _ => ?_
  have hk := contrEquiv1_symm_val d K h.rank h.size k
  have el : d.lhsIdx (ix2 r c) ((contrEquiv1 d K h.rank h.size).symm k) = ix2 r k := funext fun a => Fin.ext (by
    match a with
    | ⟨0, _⟩ => exact h.l0 _ _
    | ⟨1, _⟩ => exact (h.l1 _ _).trans hk)
  have er : d.rhsIdx (ix2 r c) ((contrEquiv1 d K h.rank h.size).symm k) = ix2 k c := funext fun a => Fin.ext (by
    match a with
    | ⟨0, _⟩ => exact (h.r0 _ _).trans hk
    | ⟨1, _⟩ => exact h.r1 _ _)
  rw [el, er]

/-- A matrix unit's product of two narrowed operands into zeros, at `(r, c)`: the textbook sum. -/
theorem matmul_zero_apply {d : DotDims ⟨2, ![R, K]⟩ ⟨2, ![K, M]⟩ ⟨2, ![R, M]⟩} (h : PlainDot d)
    (x : FVec Ideal ⟨2, ![R, K]⟩ .f32) (w : FVec Ideal ⟨2, ![K, M]⟩ .f32) (ht : FTy.bits .bf16 < FTy.bits .f32)
    (r : Fin R) (c : Fin M) :
    matmul d none (truncf .bf16 x ht) (truncf .bf16 w ht) (constant ⟨2, ![R, M]⟩ .f32 0x00000000#32) (ix2 r c)
      = ∑ k : Fin K, x (ix2 r k) * w (ix2 k c) := by
  simp only [matmul]
  rw [Ideal.matmul_constant_zero_apply]
  exact h.sum_eq (fun i => x i) (fun i => w i) r c

/-- The host's `dot_general` at `(r, c)`: the same sum. -/
theorem dotGeneral_apply {d : DotDims ⟨2, ![R, K]⟩ ⟨2, ![K, M]⟩ ⟨2, ![R, M]⟩} (h : PlainDot d)
    (x : FVec Ideal ⟨2, ![R, K]⟩ .f32) (w : FVec Ideal ⟨2, ![K, M]⟩ .f32) (r : Fin R) (c : Fin M) :
    Host.dotGeneral d none x w (ix2 r c) = ∑ k : Fin K, x (ix2 r k) * w (ix2 k c) := by
  simp only [Host.dotGeneral]
  rw [Ideal.dotGeneral_apply]
  exact h.sum_eq (fun i => x i) (fun i => w i) r c

/-- A bias vector `[M]` made a row `[1, M]` and then broadcast over `N` rows reads, at `(n, q)`, the vector at `q`. -/
theorem bias_rows_apply {N : ℕ} (b : FVec Ideal ⟨1, ![M]⟩ .f32)
    (h1 : (⟨1, ![M]⟩ : Shape).BroadcastsInDim ⟨2, ![1, M]⟩ (![1] : Fin 1 → Fin 2))
    (h2 : (⟨2, ![1, M]⟩ : Shape).BroadcastsInDim ⟨2, ![N, M]⟩ (![0, 1] : Fin 2 → Fin 2)) (n : Fin N) (q : Fin M) :
    broadcastInDim ⟨2, ![N, M]⟩ ![0, 1] h2 (broadcastInDim ⟨2, ![1, M]⟩ ![1] h1 b) (ix2 n q) = b (ix1 q) := by
  rw [broadcastInDim_apply _ h2 _ (ix2 n q) (ix2 (0 : Fin 1) q) (fun a => by
    match a with
    | ⟨0, _⟩ => show (0 : ℕ) = if (1 : ℕ) = 1 then 0 else n.val; rw [if_pos rfl]
    | ⟨1, _⟩ => show q.val = if M = 1 then 0 else q.val; split <;> [(have := q.isLt; omega); rfl])]
  exact broadcastInDim_apply _ h1 b (ix2 (0 : Fin 1) q) (ix1 q) (fun a => by
    match a with
    | ⟨0, _⟩ => show q.val = if M = 1 then 0 else q.val; split <;> [(have := q.isLt; omega); rfl])

/-- ROW BY ROW: where row `r` of the tile `xb` is row `n r` of `X` and the bias block's row is the bias vector, the
    tile's `xb · w + bias` at `(r, q)` is the whole `X · w + bias` at `(n r, q)`. -/
theorem affine_rows {N : ℕ}
    {dB : DotDims ⟨2, ![R, K]⟩ ⟨2, ![K, M]⟩ ⟨2, ![R, M]⟩} (hB : PlainDot dB)
    {dW : DotDims ⟨2, ![N, K]⟩ ⟨2, ![K, M]⟩ ⟨2, ![N, M]⟩} (hW : PlainDot dW)
    (xb : FVec Ideal ⟨2, ![R, K]⟩ .f32) (X : FVec Ideal ⟨2, ![N, K]⟩ .f32) (w : FVec Ideal ⟨2, ![K, M]⟩ .f32)
    (b2 : FVec Ideal ⟨2, ![1, M]⟩ .f32) (b : FVec Ideal ⟨1, ![M]⟩ .f32) (n : Fin R → Fin N)
    (hx : ∀ r k, xb (ix2 r k) = X (ix2 (n r) k)) (hb : ∀ q : Fin M, b2 (ix2 (0 : Fin 1) q) = b (ix1 q))
    (ht : FTy.bits .bf16 < FTy.bits .f32) (hsc : (⟨2, ![1, M]⟩ : Shape).ShapeCasts ⟨2, ![1, M]⟩)
    (hbc : (⟨2, ![1, M]⟩ : Shape).Broadcasts ⟨2, ![R, M]⟩)
    (h1 : (⟨1, ![M]⟩ : Shape).BroadcastsInDim ⟨2, ![1, M]⟩ (![1] : Fin 1 → Fin 2))
    (h2 : (⟨2, ![1, M]⟩ : Shape).BroadcastsInDim ⟨2, ![N, M]⟩ (![0, 1] : Fin 2 → Fin 2)) (r : Fin R) (q : Fin M) :
    addf (matmul dB none (truncf .bf16 xb ht) (truncf .bf16 w ht) (constant ⟨2, ![R, M]⟩ .f32 0x00000000#32))
        (broadcastTo ⟨2, ![R, M]⟩ (shapeCast ⟨2, ![1, M]⟩ b2 hsc) hbc) (ix2 r q)
      = addf (Host.dotGeneral dW none X w) (broadcastInDim ⟨2, ![N, M]⟩ ![0, 1] h2 (broadcastInDim ⟨2, ![1, M]⟩ ![1] h1 b)) (ix2 (n r) q) := by
  rw [addf_apply, addf_apply, matmul_zero_apply hB, dotGeneral_apply hW, bias_rows_apply, broadcastTo_1b_ab_apply,
    shapeCast_self, hb]
  exact congrArg (· + b (ix1 q)) (Finset.sum_congr rfl fun k _ => by rw [hx])

/-- The same after the hyperbolic tangent, the kernel's and the host's being one function of an extended real. -/
theorem tanh_affine_rows {N : ℕ}
    {dB : DotDims ⟨2, ![R, K]⟩ ⟨2, ![K, M]⟩ ⟨2, ![R, M]⟩} (hB : PlainDot dB)
    {dW : DotDims ⟨2, ![N, K]⟩ ⟨2, ![K, M]⟩ ⟨2, ![N, M]⟩} (hW : PlainDot dW)
    (xb : FVec Ideal ⟨2, ![R, K]⟩ .f32) (X : FVec Ideal ⟨2, ![N, K]⟩ .f32) (w : FVec Ideal ⟨2, ![K, M]⟩ .f32)
    (b2 : FVec Ideal ⟨2, ![1, M]⟩ .f32) (b : FVec Ideal ⟨1, ![M]⟩ .f32) (n : Fin R → Fin N)
    (hx : ∀ r k, xb (ix2 r k) = X (ix2 (n r) k)) (hb : ∀ q : Fin M, b2 (ix2 (0 : Fin 1) q) = b (ix1 q))
    (ht : FTy.bits .bf16 < FTy.bits .f32) (hsc : (⟨2, ![1, M]⟩ : Shape).ShapeCasts ⟨2, ![1, M]⟩)
    (hbc : (⟨2, ![1, M]⟩ : Shape).Broadcasts ⟨2, ![R, M]⟩)
    (h1 : (⟨1, ![M]⟩ : Shape).BroadcastsInDim ⟨2, ![1, M]⟩ (![1] : Fin 1 → Fin 2))
    (h2 : (⟨2, ![1, M]⟩ : Shape).BroadcastsInDim ⟨2, ![N, M]⟩ (![0, 1] : Fin 2 → Fin 2)) (r : Fin R) (q : Fin M) :
    tanh (addf (matmul dB none (truncf .bf16 xb ht) (truncf .bf16 w ht) (constant ⟨2, ![R, M]⟩ .f32 0x00000000#32))
        (broadcastTo ⟨2, ![R, M]⟩ (shapeCast ⟨2, ![1, M]⟩ b2 hsc) hbc)) (ix2 r q)
      = Host.tanh (addf (Host.dotGeneral dW none X w)
          (broadcastInDim ⟨2, ![N, M]⟩ ![0, 1] h2 (broadcastInDim ⟨2, ![1, M]⟩ ![1] h1 b))) (ix2 (n r) q) :=
  congrArg Ideal.tanh (affine_rows hB hW xb X w b2 b n hx hb ht hsc hbc h1 h2 r q)

end Cert.Lib

end
-- ==== Proof.LibRowTiles.lean ====
/-
  Two row-tiled matrix products read row by row, over the extended reals.

  A kernel that tiles the rows of `X : [N, K]` multiplies each tile `xb : [R, K]` by the whole right factor on a
  matrix unit (both operands narrowed to bf16, accumulated into zeros). Over the extended reals narrowing is the
  identity and the unit's product is the textbook sum over the contracted index, exactly as the plain program's one
  `dot_general` of the whole `X`. So wherever row `r` of the tile is row `n r` of `X`, entry `(r, q)` of the tile's
  product is entry `(n r, q)` of the whole product (`product_rows`).

  The second form is a classifier head: the tile is first clamped below at zero, and the right factor is a single row
  `w : [1, K]` turned into a column. Clamping is entrywise, so it commutes with taking a row, and the column of the
  transposed row at `k` is the row's entry `k` on both sides (`relu_product_rows`).
-/
import proofs.«119055_j80504866996300_1_alg».proof.Proof.LibAffineRows
import Idealize.ShloMosaic.Lib.IdealHost

noncomputable section

namespace Cert.RowTiles

open Idealize.ShloMosaic Idealize.ShloMosaic.ValueIdx Cert.Lib

variable {R K M N : ℕ}

/-- Entry `(r, q)` of a tile's product with the whole right factor is entry `(n r, q)` of the whole product, when the
    tile's row `r` is row `n r` of `X` and the tile's copy `wb` of the right factor is the right factor `W`. -/
theorem product_rows
    {dB : DotDims ⟨2, ![R, K]⟩ ⟨2, ![K, M]⟩ ⟨2, ![R, M]⟩} (hB : PlainDot dB)
    {dW : DotDims ⟨2, ![N, K]⟩ ⟨2, ![K, M]⟩ ⟨2, ![N, M]⟩} (hW : PlainDot dW)
    (xb : FVec Ideal ⟨2, ![R, K]⟩ .f32) (X : FVec Ideal ⟨2, ![N, K]⟩ .f32)
    (wb W : FVec Ideal ⟨2, ![K, M]⟩ .f32) (n : Fin R → Fin N)
    (hx : ∀ r k, xb (ix2 r k) = X (ix2 (n r) k)) (hw : ∀ k q, wb (ix2 k q) = W (ix2 k q))
    (ht : FTy.bits .bf16 < FTy.bits .f32) (hsc : (⟨2, ![K, M]⟩ : Shape).ShapeCasts ⟨2, ![K, M]⟩)
    (r : Fin R) (q : Fin M) :
    matmul dB none (truncf .bf16 xb ht) (truncf .bf16 (shapeCast ⟨2, ![K, M]⟩ wb hsc) ht)
        (constant ⟨2, ![R, M]⟩ .f32 0x00000000#32) (ix2 r q)
      = Host.dotGeneral dW none X W (ix2 (n r) q) := by
  rw [shapeCast_self, matmul_zero_apply hB, dotGeneral_apply hW]
  exact Finset.sum_congr rfl fun k _ => by rw [hx, hw]

/-- The column made of a row `[1, K]` reads, at `(k, 0)`, the row's entry `k`. -/
theorem column_of_row_apply (w : FVec Ideal ⟨2, ![1, K]⟩ .f32)
    (h : (⟨2, ![1, K]⟩ : Shape).Transposes [1, 0] ⟨2, ![K, 1]⟩) (k : Fin K) :
    transpose ⟨2, ![K, 1]⟩ [1, 0] w h (ix2 k (0 : Fin 1)) = w (ix2 (0 : Fin 1) k) :=
  transpose_apply [1, 0] w h (ix2 k (0 : Fin 1)) (ix2 (0 : Fin 1) k) (fun b => by
    match b with
    | ⟨0, _⟩ => rfl
    | ⟨1, _⟩ => rfl)

/-- Entry `(r, 0)` of a clamped tile's product with the column of the row `wb` is entry `(n r, 0)` of the whole
    clamped array's product with the column of the row `W`, when the tile's row `r` is row `n r` of `X` and `wb` is `W`. -/
theorem relu_product_rows
    {dB : DotDims ⟨2, ![R, K]⟩ ⟨2, ![K, 1]⟩ ⟨2, ![R, 1]⟩} (hB : PlainDot dB)
    {dW : DotDims ⟨2, ![N, K]⟩ ⟨2, ![K, 1]⟩ ⟨2, ![N, 1]⟩} (hW : PlainDot dW)
    (xb : FVec Ideal ⟨2, ![R, K]⟩ .f32) (X : FVec Ideal ⟨2, ![N, K]⟩ .f32)
    (wb W : FVec Ideal ⟨2, ![1, K]⟩ .f32) (n : Fin R → Fin N)
    (hx : ∀ r k, xb (ix2 r k) = X (ix2 (n r) k)) (hw : ∀ k, wb (ix2 (0 : Fin 1) k) = W (ix2 (0 : Fin 1) k))
    (ht : FTy.bits .bf16 < FTy.bits .f32) (hsc : (⟨2, ![R, K]⟩ : Shape).ShapeCasts ⟨2, ![R, K]⟩)
    (htr : (⟨2, ![1, K]⟩ : Shape).Transposes [1, 0] ⟨2, ![K, 1]⟩)
    (hbc : (⟨0, ![]⟩ : Shape).BroadcastsInDim ⟨2, ![N, K]⟩ ![]) (r : Fin R) :
    matmul dB none
        (truncf .bf16 (maximumf (shapeCast ⟨2, ![R, K]⟩ xb hsc)
          (broadcast ⟨2, ![R, K]⟩ (Scalar.ofBits (F := Ideal) .f32 0x00000000#32))) ht)
        (transpose ⟨2, ![K, 1]⟩ [1, 0] (truncf .bf16 wb ht) htr)
        (constant ⟨2, ![R, 1]⟩ .f32 0x00000000#32) (ix2 r (0 : Fin 1))
      = Host.dotGeneral dW none
          (maximumf X (broadcastInDim ⟨2, ![N, K]⟩ ![] hbc (constant ⟨0, ![]⟩ .f32 0x00000000#32)))
          (transpose ⟨2, ![K, 1]⟩ [1, 0] W htr) (ix2 (n r) (0 : Fin 1)) := by
  rw [dotGeneral_apply hW]
  simp only [matmul]
  rw [Ideal.matmul_constant_zero_apply]
  refine (hB.sum_eq (fun i => maximumf (shapeCast ⟨2, ![R, K]⟩ xb hsc)
      (broadcast ⟨2, ![R, K]⟩ (Scalar.ofBits (F := Ideal) .f32 0x00000000#32)) i)
    (fun i => transpose ⟨2, ![K, 1]⟩ [1, 0] (truncf .bf16 wb ht) htr i) r (0 : Fin 1)).trans ?_
  refine Finset.sum_congr rfl fun k _ => ?_
  rw [column_of_row_apply, column_of_row_apply W htr k, truncf_apply, hw, maximumf_apply, maximumf_apply, shapeCast_self, hx,
    broadcast_apply, broadcastInDim_scalar_apply, constant_apply]
  rfl

end Cert.RowTiles

end
-- ==== Proof.Dots.lean ====
/-
  The four matrix products of the two programs are plain products.

  Each record of dimension numbers below contracts the left operand's column with the right operand's row and keeps the
  left row and the right column: the result's row indexes the left operand's row, its column the right operand's
  column, and the one contraction coordinate indexes the left column and the right row. These are the four axis facts
  `Cert.Lib.PlainDot` asks, read off each record's lists; the kernel program's two are over a row tile `[5000, ·]`, the
  plain program's two over the whole `[100000, ·]`.
-/
import proofs.«119055_j80504866996300_1_alg».proof.Proof.Gen.KernelIdeal
import proofs.«119055_j80504866996300_1_alg».proof.Proof.Gen.ReferenceIdeal
import proofs.«119055_j80504866996300_1_alg».proof.Proof.LibAffineRows

noncomputable section

namespace Cert.Dots

open Idealize.ShloMosaic

/-! ### `Cert.KernelIdeal.dot_S5000x128_S128x128_S5000x128_1_0_0_1_n_n` -/

theorem tile0_l0 (i : Cert.KernelIdeal.S5000x128.Idx) (q : Cert.KernelIdeal.dot_S5000x128_S128x128_S5000x128_1_0_0_1_n_n.contr.Idx) :
    (Cert.KernelIdeal.dot_S5000x128_S128x128_S5000x128_1_0_0_1_n_n.lhsIdx i q 0).val = (i 0).val := by
  unfold DotDims.lhsIdx
  rw [dif_neg (show ¬(0 : Fin Cert.KernelIdeal.S5000x128.rank) ∈ Cert.KernelIdeal.dot_S5000x128_S128x128_S5000x128_1_0_0_1_n_n.lhsBatch by decide), dif_pos (show (0 : Fin Cert.KernelIdeal.S5000x128.rank) ∈ Cert.KernelIdeal.dot_S5000x128_S128x128_S5000x128_1_0_0_1_n_n.lhsNonContracting by decide)]
  rfl
theorem tile0_l1 (i : Cert.KernelIdeal.S5000x128.Idx) (q : Cert.KernelIdeal.dot_S5000x128_S128x128_S5000x128_1_0_0_1_n_n.contr.Idx) :
    (Cert.KernelIdeal.dot_S5000x128_S128x128_S5000x128_1_0_0_1_n_n.lhsIdx i q 1).val = (q ⟨0, by decide⟩).val :=
  Cert.KernelIdeal.dot_S5000x128_S128x128_S5000x128_1_0_0_1_n_n.lhsIdx_val_of_single rfl i q
theorem tile0_r0 (i : Cert.KernelIdeal.S5000x128.Idx) (q : Cert.KernelIdeal.dot_S5000x128_S128x128_S5000x128_1_0_0_1_n_n.contr.Idx) :
    (Cert.KernelIdeal.dot_S5000x128_S128x128_S5000x128_1_0_0_1_n_n.rhsIdx i q 0).val = (q ⟨0, by decide⟩).val :=
  Cert.KernelIdeal.dot_S5000x128_S128x128_S5000x128_1_0_0_1_n_n.rhsIdx_val_of_single rfl i q
theorem tile0_r1 (i : Cert.KernelIdeal.S5000x128.Idx) (q : Cert.KernelIdeal.dot_S5000x128_S128x128_S5000x128_1_0_0_1_n_n.contr.Idx) :
    (Cert.KernelIdeal.dot_S5000x128_S128x128_S5000x128_1_0_0_1_n_n.rhsIdx i q 1).val = (i 1).val := by
  unfold DotDims.rhsIdx
  rw [dif_neg (show ¬(1 : Fin Cert.KernelIdeal.S128x128.rank) ∈ Cert.KernelIdeal.dot_S5000x128_S128x128_S5000x128_1_0_0_1_n_n.rhsBatch by decide), dif_pos (show (1 : Fin Cert.KernelIdeal.S128x128.rank) ∈ Cert.KernelIdeal.dot_S5000x128_S128x128_S5000x128_1_0_0_1_n_n.rhsNonContracting by decide)]
  rfl
theorem tile0_plain : Cert.Lib.PlainDot Cert.KernelIdeal.dot_S5000x128_S128x128_S5000x128_1_0_0_1_n_n :=
  ⟨rfl, rfl, tile0_l0, tile0_l1, tile0_r0, tile0_r1⟩

/-! ### `Cert.KernelIdeal.dot_S5000x128_S128x1_S5000x1_1_0_0_1_n_n` -/

theorem tile1_l0 (i : Cert.KernelIdeal.S5000x1.Idx) (q : Cert.KernelIdeal.dot_S5000x128_S128x1_S5000x1_1_0_0_1_n_n.contr.Idx) :
    (Cert.KernelIdeal.dot_S5000x128_S128x1_S5000x1_1_0_0_1_n_n.lhsIdx i q 0).val = (i 0).val := by
  unfold DotDims.lhsIdx
  rw [dif_neg (show ¬(0 : Fin Cert.KernelIdeal.S5000x128.rank) ∈ Cert.KernelIdeal.dot_S5000x128_S128x1_S5000x1_1_0_0_1_n_n.lhsBatch by decide), dif_pos (show (0 : Fin Cert.KernelIdeal.S5000x128.rank) ∈ Cert.KernelIdeal.dot_S5000x128_S128x1_S5000x1_1_0_0_1_n_n.lhsNonContracting by decide)]
  rfl
theorem tile1_l1 (i : Cert.KernelIdeal.S5000x1.Idx) (q : Cert.KernelIdeal.dot_S5000x128_S128x1_S5000x1_1_0_0_1_n_n.contr.Idx) :
    (Cert.KernelIdeal.dot_S5000x128_S128x1_S5000x1_1_0_0_1_n_n.lhsIdx i q 1).val = (q ⟨0, by decide⟩).val :=
  Cert.KernelIdeal.dot_S5000x128_S128x1_S5000x1_1_0_0_1_n_n.lhsIdx_val_of_single rfl i q
theorem tile1_r0 (i : Cert.KernelIdeal.S5000x1.Idx) (q : Cert.KernelIdeal.dot_S5000x128_S128x1_S5000x1_1_0_0_1_n_n.contr.Idx) :
    (Cert.KernelIdeal.dot_S5000x128_S128x1_S5000x1_1_0_0_1_n_n.rhsIdx i q 0).val = (q ⟨0, by decide⟩).val :=
  Cert.KernelIdeal.dot_S5000x128_S128x1_S5000x1_1_0_0_1_n_n.rhsIdx_val_of_single rfl i q
theorem tile1_r1 (i : Cert.KernelIdeal.S5000x1.Idx) (q : Cert.KernelIdeal.dot_S5000x128_S128x1_S5000x1_1_0_0_1_n_n.contr.Idx) :
    (Cert.KernelIdeal.dot_S5000x128_S128x1_S5000x1_1_0_0_1_n_n.rhsIdx i q 1).val = (i 1).val := by
  unfold DotDims.rhsIdx
  rw [dif_neg (show ¬(1 : Fin Cert.KernelIdeal.S128x1.rank) ∈ Cert.KernelIdeal.dot_S5000x128_S128x1_S5000x1_1_0_0_1_n_n.rhsBatch by decide), dif_pos (show (1 : Fin Cert.KernelIdeal.S128x1.rank) ∈ Cert.KernelIdeal.dot_S5000x128_S128x1_S5000x1_1_0_0_1_n_n.rhsNonContracting by decide)]
  rfl
theorem tile1_plain : Cert.Lib.PlainDot Cert.KernelIdeal.dot_S5000x128_S128x1_S5000x1_1_0_0_1_n_n :=
  ⟨rfl, rfl, tile1_l0, tile1_l1, tile1_r0, tile1_r1⟩

/-! ### `Cert.ReferenceIdeal.dot_S100000x128_S128x128_S100000x128_1_0_0_1_n_n` -/

theorem whole0_l0 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.lhsIdx i q 0).val = (i 0).val := by
  unfold DotDims.lhsIdx
  rw [dif_neg (show ¬(0 : Fin Cert.ReferenceIdeal.S100000x128.rank) ∈ Cert.ReferenceIdeal.dot_S100000x128_S128x128_S100000x128_1_0_0_1_n_n.lhsBatch by decide), dif_pos (show (0 : Fin Cert.ReferenceIdeal.S100000x128.rank) ∈ Cert.ReferenceIdeal.dot_S100000x128_S128x128_S100000x128_1_0_0_1_n_n.lhsNonContracting by decide)]
  rfl
theorem whole0_l1 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.lhsIdx i q 1).val = (q ⟨0, by decide⟩).val :=
  Cert.ReferenceIdeal.dot_S100000x128_S128x128_S100000x128_1_0_0_1_n_n.lhsIdx_val_of_single rfl i q
theorem whole0_r0 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.rhsIdx i q 0).val = (q ⟨0, by decide⟩).val :=
  Cert.ReferenceIdeal.dot_S100000x128_S128x128_S100000x128_1_0_0_1_n_n.rhsIdx_val_of_single rfl i q
theorem whole0_r1 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.rhsIdx i q 1).val = (i 1).val := by
  unfold DotDims.rhsIdx
  rw [dif_neg (show ¬(1 : Fin Cert.ReferenceIdeal.S128x128.rank) ∈ Cert.ReferenceIdeal.dot_S100000x128_S128x128_S100000x128_1_0_0_1_n_n.rhsBatch by decide), dif_pos (show (1 : Fin Cert.ReferenceIdeal.S128x128.rank) ∈ Cert.ReferenceIdeal.dot_S100000x128_S128x128_S100000x128_1_0_0_1_n_n.rhsNonContracting by decide)]
  rfl
theorem whole0_plain : Cert.Lib.PlainDot Cert.ReferenceIdeal.dot_S100000x128_S128x128_S100000x128_1_0_0_1_n_n :=
  ⟨rfl, rfl, whole0_l0, whole0_l1, whole0_r0, whole0_r1⟩

/-! ### `Cert.ReferenceIdeal.dot_S100000x128_S128x1_S100000x1_1_0_0_1_n_n` -/

theorem whole1_l0 (i : Cert.ReferenceIdeal.S100000x1.Idx) (q : Cert.ReferenceIdeal.dot_S100000x128_S128x1_S100000x1_1_0_0_1_n_n.contr.Idx) :
    (Cert.ReferenceIdeal.dot_S100000x128_S128x1_S100000x1_1_0_0_1_n_n.lhsIdx i q 0).val = (i 0).val := by
  unfold DotDims.lhsIdx
  rw [dif_neg (show ¬(0 : Fin Cert.ReferenceIdeal.S100000x128.rank) ∈ Cert.ReferenceIdeal.dot_S100000x128_S128x1_S100000x1_1_0_0_1_n_n.lhsBatch by decide), dif_pos (show (0 : Fin Cert.ReferenceIdeal.S100000x128.rank) ∈ Cert.ReferenceIdeal.dot_S100000x128_S128x1_S100000x1_1_0_0_1_n_n.lhsNonContracting by decide)]
  rfl
theorem whole1_l1 (i : Cert.ReferenceIdeal.S100000x1.Idx) (q : Cert.ReferenceIdeal.dot_S100000x128_S128x1_S100000x1_1_0_0_1_n_n.contr.Idx) :
    (Cert.ReferenceIdeal.dot_S100000x128_S128x1_S100000x1_1_0_0_1_n_n.lhsIdx i q 1).val = (q ⟨0, by decide⟩).val :=
  Cert.ReferenceIdeal.dot_S100000x128_S128x1_S100000x1_1_0_0_1_n_n.lhsIdx_val_of_single rfl i q
theorem whole1_r0 (i : Cert.ReferenceIdeal.S100000x1.Idx) (q : Cert.ReferenceIdeal.dot_S100000x128_S128x1_S100000x1_1_0_0_1_n_n.contr.Idx) :
    (Cert.ReferenceIdeal.dot_S100000x128_S128x1_S100000x1_1_0_0_1_n_n.rhsIdx i q 0).val = (q ⟨0, by decide⟩).val :=
  Cert.ReferenceIdeal.dot_S100000x128_S128x1_S100000x1_1_0_0_1_n_n.rhsIdx_val_of_single rfl i q
theorem whole1_r1 (i : Cert.ReferenceIdeal.S100000x1.Idx) (q : Cert.ReferenceIdeal.dot_S100000x128_S128x1_S100000x1_1_0_0_1_n_n.contr.Idx) :
    (Cert.ReferenceIdeal.dot_S100000x128_S128x1_S100000x1_1_0_0_1_n_n.rhsIdx i q 1).val = (i 1).val := by
  unfold DotDims.rhsIdx
  rw [dif_neg (show ¬(1 : Fin Cert.ReferenceIdeal.S128x1.rank) ∈ Cert.ReferenceIdeal.dot_S100000x128_S128x1_S100000x1_1_0_0_1_n_n.rhsBatch by decide), dif_pos (show (1 : Fin Cert.ReferenceIdeal.S128x1.rank) ∈ Cert.ReferenceIdeal.dot_S100000x128_S128x1_S100000x1_1_0_0_1_n_n.rhsNonContracting by decide)]
  rfl
theorem whole1_plain : Cert.Lib.PlainDot Cert.ReferenceIdeal.dot_S100000x128_S128x1_S100000x1_1_0_0_1_n_n :=
  ⟨rfl, rfl, whole1_l0, whole1_l1, whole1_r0, whole1_r1⟩

end Cert.Dots

end
-- ==== Proof.Region0Value.lean ====
/-
  What the first pipeline leaves in its result array: the whole product `X · W`.

  The pipeline walks the 20 row tiles of `X : [100000, 128]`; at point `t` it stages rows `5000 t … 5000 t + 4999` of `X`
  and the whole `W : [128, 128]`, multiplies them on the matrix unit and writes the `[5000, 128]` product back over the
  same rows of the result. Row `r` of tile `t` is row `5000 t + r` of `X`, so by `RowTiles.product_rows` what point `t`
  writes back is block `t` of the whole `dot_general X W`; the 20 blocks cover the result (row `i` lies in block
  `i / 5000`), so the array ends holding that product, whatever the arrays `X` and `W` hold when the region is entered.
-/
import proofs.«119055_j80504866996300_1_alg».proof.Proof.Gen.KernelIdeal.Frame
import proofs.«119055_j80504866996300_1_alg».proof.Proof.LibRowTiles
import proofs.«119055_j80504866996300_1_alg».proof.Proof.Dots
import Idealize.ShloMosaic.Lib.Pipeline.Value

set_option maxRecDepth 16384

noncomputable section

namespace Cert.KernelIdeal.Region0

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem zeros : (![0, 0] : Fin 2 → Nat) = fun _ => 0 := funext fun a => by fin_cases a <;> rfl

/-- The whole product `X · W`: what the result array is to hold. -/
abbrev product (dW : DotDims S100000x128 S128x128 S100000x128) (X : FVec Ideal S100000x128 .f32)
    (W : FVec Ideal S128x128 .f32) : FVec Ideal S100000x128 .f32 :=
  Host.dotGeneral dW none X W

/-- The body's payload on a tile `x0` of `X` and a copy `x1` of `W`, at `(r, q)`: the whole product at `(n r, q)`. -/
theorem payload_rows {dW : DotDims S100000x128 S128x128 S100000x128} (hW : Cert.Lib.PlainDot dW)
    (x0 : Vec Ideal S5000x128 .f32) (x1 : Vec Ideal S128x128 .f32)
    (X : FVec Ideal S100000x128 .f32) (W : FVec Ideal S128x128 .f32) (n : Fin 5000 → Fin 100000)
    (hx : ∀ r k, x0 (ix2 r k) = X (ix2 (n r) k)) (hw : ∀ k q, x1 (ix2 k q) = W (ix2 k q)) (r : Fin 5000) (q : Fin 128) :
    k0_pay1 x0 x1 (ix2 r q) = product dW X W (ix2 (n r) q) := by
  unfold k0_pay1
  exact Cert.RowTiles.product_rows Cert.Dots.tile0_plain hW x0 X x1 W n hx hw _ _ r q

/-- The printed index maps over the grid: the tile and the result move together down the rows, the right factor stays. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- WHAT POINT `t` WRITES BACK is block `t` of the whole product of the arrays as the region finds them. -/
theorem flushed_eq {dW : DotDims S100000x128 S128x128 S100000x128} (hW : Cert.Lib.PlainDot dW) (c : Dev nD) (t : Fin cfg0.N) :
    (dat0 V c).flushed 2 t
      = ((cfg0.win 2).blk t).view.read (Elt Ideal) (product dW (V c main_arg0) (V c main_v37)) := by
  show (cfg0.win 2).cut (grid0.coords t) ((dat0 V c).after 2 t) = _
  rw [after0_2]
  unfold out0_2
  rw [View.canon_unit_zero zeros]
  simp only [View.ld_unit_zero (S := S5000x128) zeros, View.ld_unit_zero (S := S128x128) zeros]
  obtain ⟨e0, e1, e2, e3, e4, e5⟩ := index_facts t
  have ht : t.val < 20 := t.isLt
  funext j
  have hj0 : (j 0).val < 5000 := (j 0).isLt
  show k0_pay1 (iblk0 V c 0 t) (iblk0 V c 1 t) j
    = product dW (V c main_arg0) (V c main_v37) (((cfg0.win 2).blk t).view.emb j)
  have hemb : ((cfg0.win 2).blk t).view.emb j = ix2 (⟨t.val * 5000 + (j 0).val, by omega⟩ : Fin 100000) (j 1) := by
    funext a; apply Fin.ext
    match a with
    | ⟨0, _⟩ => show win0_2.index t (0 : Fin 2) * 5000 + 1 * (j 0).val = t.val * 5000 + (j 0).val; omega
    | ⟨1, _⟩ => show win0_2.index t (1 : Fin 2) * 128 + 1 * (j 1).val = (j 1).val; omega
  rw [hemb]
  refine (congrArg (k0_pay1 (iblk0 V c 0 t) (iblk0 V c 1 t)) (eq_ix2 j)).trans ?_
  refine payload_rows hW (iblk0 V c 0 t) (iblk0 V c 1 t) (V c main_arg0) (V c main_v37)
    (fun r => ⟨t.val * 5000 + r.val, by have := r.isLt; omega⟩) (fun r k => ?_) (fun k q => ?_) (j 0) (j 1)
  · show V c main_arg0 (((cfg0.win 0).blk t).view.emb (ix2 r k)) = _
    refine congrArg (V c main_arg0) (funext fun a => Fin.ext ?_)
    match a with
    | ⟨0, _⟩ => show win0_0.index t (0 : Fin 2) * 5000 + 1 * r.val = t.val * 5000 + r.val; omega
    | ⟨1, _⟩ => show win0_0.index t (1 : Fin 2) * 128 + 1 * k.val = k.val; omega
  · show V c main_v37 (((cfg0.win 1).blk t).view.emb (ix2 k q)) = _
    refine congrArg (V c main_v37) (funext fun a => Fin.ext ?_)
    match a with
    | ⟨0, _⟩ => show win0_1.index t (0 : Fin 2) * 128 + 1 * k.val = k.val; omega
    | ⟨1, _⟩ => show win0_1.index t (1 : Fin 2) * 128 + 1 * q.val = q.val; omega

/-- An index of the result is in point `t`'s block iff each coordinate is in the block's range on its axis. -/
theorem mem_blk (t : Fin cfg0.N) (i : S100000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v72).slice (win0_2.rect t)).set ↔ _
  rw [View.set_slice_whole, Rect.mem_set_unit]
  exact Iff.rfl

/-- Every index of the result lies in some point's block: row `i` in block `i / 5000`. -/
theorem covered (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  refine ⟨(⟨(i 0).val / 5000, by show (i 0).val / 5000 < 20; omega⟩ : Fin cfg0.N), flush0_2 _, ?_⟩
  rw [mem_blk]
  obtain ⟨-, -, -, -, e4, e5⟩ := index_facts (⟨(i 0).val / 5000, by show (i 0).val / 5000 < 20; omega⟩ : Fin cfg0.N)
  intro a
  match a with
  | ⟨0, _⟩ =>
    show win0_2.index _ (0 : Fin 2) * 5000 ≤ (i 0).val ∧ (i 0).val < win0_2.index _ (0 : Fin 2) * 5000 + 5000
    rw [e4]; show (i 0).val / 5000 * 5000 ≤ (i 0).val ∧ (i 0).val < (i 0).val / 5000 * 5000 + 5000; omega
  | ⟨1, _⟩ =>
    show win0_2.index _ (1 : Fin 2) * 128 ≤ (i 1).val ∧ (i 1).val < win0_2.index _ (1 : Fin 2) * 128 + 128
    rw [e5]; omega

/-- THE RESULT ARRAY after the region: the whole product of the arrays as the region finds them. -/
theorem result {dW : DotDims S100000x128 S128x128 S100000x128} (hW : Cert.Lib.PlainDot dW) (c : Dev nD) :
    (dat0 V c).arrAt 2 cfg0.N = product dW (V c main_arg0) (V c main_v37) :=
  (dat0 V c).arrAt_eq_of_cover 2 _ (fun t _ => flushed_eq V hW c t) covered

end Cert.KernelIdeal.Region0

end
-- ==== Proof.Region1Value.lean ====
/-
  What the second pipeline leaves in its result array: the clamped aggregate times the classifier column.

  The pipeline walks the 20 row tiles of `A : [100000, 128]`; at point `t` it stages rows `5000 t … 5000 t + 4999` of `A`
  and the whole row `w : [1, 128]`, clamps the tile below at zero, multiplies it with the column made of `w` on the matrix
  unit and writes the `[5000, 1]` product back over the same rows of the result. Clamping is entrywise and row `r` of
  tile `t` is row `5000 t + r` of `A`, so by `RowTiles.relu_product_rows` what point `t` writes back is block `t` of the
  whole `dot_general (max A 0) wᵀ`; the 20 blocks cover the result, so the array ends holding that product, whatever
  `A` and `w` hold when the region is entered.
-/
import proofs.«119055_j80504866996300_1_alg».proof.Proof.Gen.KernelIdeal.Frame
import proofs.«119055_j80504866996300_1_alg».proof.Proof.LibRowTiles
import proofs.«119055_j80504866996300_1_alg».proof.Proof.Dots
import Idealize.ShloMosaic.Lib.Pipeline.Value

set_option maxRecDepth 16384

noncomputable section

namespace Cert.KernelIdeal.Region1

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem zeros : (![0, 0] : Fin 2 → Nat) = fun _ => 0 := funext fun a => by fin_cases a <;> rfl

/-- The whole clamped aggregate times the column of the row `W`: what the result array is to hold. -/
abbrev head {dW : DotDims S100000x128 S128x1 S100000x1} (htr : S1x128.Transposes [1, 0] S128x1)
    (hbc : S_.BroadcastsInDim S100000x128 ![]) (X : FVec Ideal S100000x128 .f32) (W : FVec Ideal S1x128 .f32) :
    FVec Ideal S100000x1 .f32 :=
  Host.dotGeneral dW none (maximumf X (broadcastInDim S100000x128 ![] hbc (constant S_ .f32 0x00000000#32)))
    (transpose S128x1 [1, 0] W htr)

/-- The body's payload on a tile `x0` of `X` and a copy `x1` of the row `W`, at `(r, 0)`: the whole product at `(n r, 0)`. -/
theorem payload_rows {dW : DotDims S100000x128 S128x1 S100000x1} (hW : Cert.Lib.PlainDot dW)
    (htr : S1x128.Transposes [1, 0] S128x1) (hbc : S_.BroadcastsInDim S100000x128 ![])
    (x0 : Vec Ideal S5000x128 .f32) (x1 : Vec Ideal S1x128 .f32)
    (X : FVec Ideal S100000x128 .f32) (W : FVec Ideal S1x128 .f32) (n : Fin 5000 → Fin 100000)
    (hx : ∀ r k, x0 (ix2 r k) = X (ix2 (n r) k)) (hw : ∀ k, x1 (ix2 (0 : Fin 1) k) = W (ix2 (0 : Fin 1) k)) (r : Fin 5000) :
    k1_pay1 x0 x1 (ix2 r (0 : Fin 1)) = head (dW := dW) htr hbc X W (ix2 (n r) (0 : Fin 1)) := by
  unfold k1_pay1
  exact Cert.RowTiles.relu_product_rows Cert.Dots.tile1_plain hW x0 X x1 W n hx hw _ _ htr hbc r

/-- The printed index maps over the grid: the tile and the result move together down the rows, the row `w` stays. -/
theorem index_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- WHAT POINT `t` WRITES BACK is block `t` of the whole product of the arrays as the region finds them. -/
theorem flushed_eq {dW : DotDims S100000x128 S128x1 S100000x1} (hW : Cert.Lib.PlainDot dW)
    (htr : S1x128.Transposes [1, 0] S128x1) (hbc : S_.BroadcastsInDim S100000x128 ![]) (c : Dev nD) (t : Fin cfg1.N) :
    (dat1 V c).flushed 2 t
      = ((cfg1.win 2).blk t).view.read (Elt Ideal) (head (dW := dW) htr hbc (V c main_v85) (V c main_arg8)) := by
  show (cfg1.win 2).cut (grid1.coords t) ((dat1 V c).after 2 t) = _
  rw [after1_2]
  unfold out1_2
  rw [View.canon_unit_zero zeros]
  simp only [View.ld_unit_zero (S := S5000x128) zeros, View.ld_unit_zero (S := S1x128) zeros]
  obtain ⟨e0, e1, e2, e3, e4, e5⟩ := index_facts t
  have ht : t.val < 20 := t.isLt
  funext j
  have hj0 : (j 0).val < 5000 := (j 0).isLt
  have hj1 : (j 1).val < 1 := (j 1).isLt
  show k1_pay1 (iblk1 V c 0 t) (iblk1 V c 1 t) j
    = head (dW := dW) htr hbc (V c main_v85) (V c main_arg8) (((cfg1.win 2).blk t).view.emb j)
  have hemb : ((cfg1.win 2).blk t).view.emb j = ix2 (⟨t.val * 5000 + (j 0).val, by omega⟩ : Fin 100000) (0 : Fin 1) := by
    funext a; apply Fin.ext
    match a with
    | ⟨0, _⟩ => show win1_2.index t (0 : Fin 2) * 5000 + 1 * (j 0).val = t.val * 5000 + (j 0).val; omega
    | ⟨1, _⟩ => show win1_2.index t (1 : Fin 2) * 1 + 1 * (j 1).val = 0; omega
  have hj : j = ix2 (j 0) (0 : Fin 1) := by
    funext a; apply Fin.ext
    match a with
    | ⟨0, _⟩ => rfl
    | ⟨1, _⟩ => show (j 1).val = 0; omega
  rw [hemb]
  refine (congrArg (k1_pay1 (iblk1 V c 0 t) (iblk1 V c 1 t)) hj).trans ?_
  refine payload_rows hW htr hbc (iblk1 V c 0 t) (iblk1 V c 1 t) (V c main_v85) (V c main_arg8)
    (fun r => ⟨t.val * 5000 + r.val, by have := r.isLt; omega⟩) (fun r k => ?_) (fun k => ?_) (j 0)
  · show V c main_v85 (((cfg1.win 0).blk t).view.emb (ix2 r k)) = _
    refine congrArg (V c main_v85) (funext fun a => Fin.ext ?_)
    match a with
    | ⟨0, _⟩ => show win1_0.index t (0 : Fin 2) * 5000 + 1 * r.val = t.val * 5000 + r.val; omega
    | ⟨1, _⟩ => show win1_0.index t (1 : Fin 2) * 128 + 1 * k.val = k.val; omega
  · show V c main_arg8 (((cfg1.win 1).blk t).view.emb (ix2 (0 : Fin 1) k)) = _
    refine congrArg (V c main_arg8) (funext fun a => Fin.ext ?_)
    match a with
    | ⟨0, _⟩ => show win1_1.index t (0 : Fin 2) * 1 + 1 * 0 = 0; omega
    | ⟨1, _⟩ => show win1_1.index t (1 : Fin 2) * 128 + 1 * k.val = k.val; omega

/-- An index of the result is in point `t`'s block iff each coordinate is in the block's range on its axis. -/
theorem mem_blk (t : Fin cfg1.N) (i : S100000x1.Idx) :
    i ∈ ((cfg1.win 2).blk t).view.set ↔ ∀ a : Fin 2, win1_2.index t a * S5000x1.size a ≤ (i a).val
      ∧ (i a).val < win1_2.index t a * S5000x1.size a + S5000x1.size a := by
  show i ∈ ((View.whole main_v86).slice (win1_2.rect t)).set ↔ _
  rw [View.set_slice_whole, Rect.mem_set_unit]
  exact Iff.rfl

/-- Every index of the result lies in some point's block: row `i` in block `i / 5000`. -/
theorem covered (i : S100000x1.Idx) :
    ∃ t : Fin cfg1.N, (cfg1.win 2).flush t = true ∧ i ∈ ((cfg1.win 2).blk t).view.set := by
  have hi0 : (i 0).val < 100000 := (i 0).isLt
  have hi1 : (i 1).val < 1 := (i 1).isLt
  refine ⟨(⟨(i 0).val / 5000, by show (i 0).val / 5000 < 20; omega⟩ : Fin cfg1.N), flush1_2 _, ?_⟩
  rw [mem_blk]
  obtain ⟨-, -, -, -, e4, e5⟩ := index_facts (⟨(i 0).val / 5000, by show (i 0).val / 5000 < 20; omega⟩ : Fin cfg1.N)
  intro a
  match a with
  | ⟨0, _⟩ =>
    show win1_2.index _ (0 : Fin 2) * 5000 ≤ (i 0).val ∧ (i 0).val < win1_2.index _ (0 : Fin 2) * 5000 + 5000
    rw [e4]; show (i 0).val / 5000 * 5000 ≤ (i 0).val ∧ (i 0).val < (i 0).val / 5000 * 5000 + 5000; omega
  | ⟨1, _⟩ =>
    show win1_2.index _ (1 : Fin 2) * 1 ≤ (i 1).val ∧ (i 1).val < win1_2.index _ (1 : Fin 2) * 1 + 1
    rw [e5]; omega

/-- THE RESULT ARRAY after the region: the whole product of the arrays as the region finds them. -/
theorem result {dW : DotDims S100000x128 S128x1 S100000x1} (hW : Cert.Lib.PlainDot dW)
    (htr : S1x128.Transposes [1, 0] S128x1) (hbc : S_.BroadcastsInDim S100000x128 ![]) (c : Dev nD) :
    (dat1 V c).arrAt 2 cfg1.N = head (dW := dW) htr hbc (V c main_v85) (V c main_arg8) :=
  (dat1 V c).arrAt_eq_of_cover 2 _ (fun t _ => flushed_eq V hW htr hbc c t) covered

end Cert.KernelIdeal.Region1

end
-- ==== Proof.HostChain.lean ====
/-
  The kernel program's result, boundary by boundary, against the plain program's own fold.

  The kernel program's @main is: the shared stretch before the first pipeline, the first pipeline (`Region0`:
  `h = X · W`), sixteen host operations (gather `h` at the sources, scale by the edge coefficient, scatter-add at the
  targets), the second pipeline (`Region1`: `max(agg, 0) · wᵀ`), and three host operations that add the bias. Walking its
  boundaries in order, each value a later item reads is what the plain program's fold of its operations leaves in the
  corresponding buffer: a host stretch by `HostSteps`, a pipeline's result by its region module together with the plain
  program's operation at that place, a buffer a pipeline does not write by its entry contents. The last boundary's
  result buffer is then the plain program's result.
-/
import proofs.«119055_j80504866996300_1_alg».proof.Proof.Gen.KernelIdeal.Frame
import proofs.«119055_j80504866996300_1_alg».proof.Proof.HostSteps
import proofs.«119055_j80504866996300_1_alg».proof.Proof.Region0Value
import proofs.«119055_j80504866996300_1_alg».proof.Proof.Region1Value

set_option maxRecDepth 16384

noncomputable section

namespace Cert.HostChain

open Cert.KernelIdeal Cert.KernelIdeal.Gen
open Idealize.ShloMosaic Idealize.ShloMosaic.TcCoe Idealize.SL.Sem Idealize.ShloMosaic.StableHlo
open Cert.HostSteps (Agree)

variable (m : (ℓ : Loc nD τ sig) → Buf (Elt Ideal) ℓ) (ρ : Dev nD → PrngReg) (c : Dev nD)
variable (VR : Valuation Cert.ReferenceIdeal.τ Cert.ReferenceIdeal.sig (Elt Ideal))

/-! ## Entering the first pipeline -/

theorem w3_weight (h : Agree (W0 m ρ c) VR) : W3 m ρ c (Proc.devRef .tc main_v37) = StableHlo.after (Cert.ReferenceIdeal.Value.ops (F := Ideal)) VR (Proc.devRef .tc Cert.ReferenceIdeal.main_v37) :=
  Cert.HostSteps.weight (W0 m ρ c) VR h
theorem w3_coefficient (h : Agree (W0 m ρ c) VR) : W3 m ρ c (Proc.devRef .tc main_v71) = StableHlo.after (Cert.ReferenceIdeal.Value.ops (F := Ideal)) VR (Proc.devRef .tc Cert.ReferenceIdeal.main_v71) :=
  Cert.HostSteps.coefficient (W0 m ρ c) VR h
theorem w3_sources (h : Agree (W0 m ρ c) VR) : W3 m ρ c (Proc.devRef .tc main_v41) = StableHlo.after (Cert.ReferenceIdeal.Value.ops (F := Ideal)) VR (Proc.devRef .tc Cert.ReferenceIdeal.main_v41) :=
  Cert.HostSteps.sources (W0 m ρ c) VR h
theorem w3_targets (h : Agree (W0 m ρ c) VR) : W3 m ρ c (Proc.devRef .tc main_v44) = StableHlo.after (Cert.ReferenceIdeal.Value.ops (F := Ideal)) VR (Proc.devRef .tc Cert.ReferenceIdeal.main_v44) :=
  Cert.HostSteps.targets (W0 m ρ c) VR h
theorem w3_features (h : Agree (W0 m ρ c) VR) : W3 m ρ c (Proc.devRef .tc main_arg0) = VR (Proc.devRef .tc Cert.ReferenceIdeal.main_arg0) :=
  (Cert.HostSteps.kept (W0 m ρ c)).1.trans h.a0
theorem w3_row (h : Agree (W0 m ρ c) VR) : W3 m ρ c (Proc.devRef .tc main_arg8) = VR (Proc.devRef .tc Cert.ReferenceIdeal.main_arg8) :=
  (Cert.HostSteps.kept (W0 m ρ c)).2.1.trans h.a8
theorem w3_bias (h : Agree (W0 m ρ c) VR) : W3 m ρ c (Proc.devRef .tc main_arg9) = VR (Proc.devRef .tc Cert.ReferenceIdeal.main_arg9) :=
  (Cert.HostSteps.kept (W0 m ρ c)).2.2.trans h.a9

/-! ## Leaving the first pipeline: its result is the plain program's `dot_general`, everything else as entered -/

theorem w4_product (h : Agree (W0 m ρ c) VR) : W4 m ρ c (Proc.devRef .tc main_v72) = StableHlo.after (Cert.ReferenceIdeal.Value.ops (F := Ideal)) VR (Proc.devRef .tc Cert.ReferenceIdeal.main_v72) := by
  have e0 : V3 m ρ c main_arg0 = VR (Proc.devRef .tc Cert.ReferenceIdeal.main_arg0) := w3_features m ρ c VR h
  have e1 : V3 m ρ c main_v37 = StableHlo.after (Cert.ReferenceIdeal.Value.ops (F := Ideal)) VR (Proc.devRef .tc Cert.ReferenceIdeal.main_v37) := w3_weight m ρ c VR h
  refine (W4_arr m ρ c 2).trans ?_
  rw [Cert.KernelIdeal.Region0.result (V3 m ρ) Cert.Dots.whole0_plain c, e0, e1]
  exact Cert.HostSteps.product_def VR

theorem w4_coefficient (h : Agree (W0 m ρ c) VR) : W4 m ρ c (Proc.devRef .tc main_v71) = StableHlo.after (Cert.ReferenceIdeal.Value.ops (F := Ideal)) VR (Proc.devRef .tc Cert.ReferenceIdeal.main_v71) :=
  (W4_of_ne m ρ c main_v71 (by decide)).trans (w3_coefficient m ρ c VR h)
theorem w4_sources (h : Agree (W0 m ρ c) VR) : W4 m ρ c (Proc.devRef .tc main_v41) = StableHlo.after (Cert.ReferenceIdeal.Value.ops (F := Ideal)) VR (Proc.devRef .tc Cert.ReferenceIdeal.main_v41) :=
  (W4_of_ne m ρ c main_v41 (by decide)).trans (w3_sources m ρ c VR h)
theorem w4_targets (h : Agree (W0 m ρ c) VR) : W4 m ρ c (Proc.devRef .tc main_v44) = StableHlo.after (Cert.ReferenceIdeal.Value.ops (F := Ideal)) VR (Proc.devRef .tc Cert.ReferenceIdeal.main_v44) :=
  (W4_of_ne m ρ c main_v44 (by decide)).trans (w3_targets m ρ c VR h)
theorem w4_row (h : Agree (W0 m ρ c) VR) : W4 m ρ c (Proc.devRef .tc main_arg8) = VR (Proc.devRef .tc Cert.ReferenceIdeal.main_arg8) :=
  (W4_of_ne m ρ c main_arg8 (by decide)).trans (w3_row m ρ c VR h)
theorem w4_bias (h : Agree (W0 m ρ c) VR) : W4 m ρ c (Proc.devRef .tc main_arg9) = VR (Proc.devRef .tc Cert.ReferenceIdeal.main_arg9) :=
  (W4_of_ne m ρ c main_arg9 (by decide)).trans (w3_bias m ρ c VR h)

/-! ## Entering the second pipeline: the aggregate after the message-passing stretch -/

theorem w5_aggregate (h : Agree (W0 m ρ c) VR) : W5 m ρ c (Proc.devRef .tc main_v85) = StableHlo.after (Cert.ReferenceIdeal.Value.ops (F := Ideal)) VR (Proc.devRef .tc Cert.ReferenceIdeal.main_v85) :=
  Cert.HostSteps.aggregate VR (W4 m ρ c) (w4_product m ρ c VR h) (w4_coefficient m ρ c VR h) (w4_sources m ρ c VR h)
    (w4_targets m ρ c VR h)
theorem w5_row (h : Agree (W0 m ρ c) VR) : W5 m ρ c (Proc.devRef .tc main_arg8) = VR (Proc.devRef .tc Cert.ReferenceIdeal.main_arg8) :=
  (Cert.HostSteps.aggregate_kept (W4 m ρ c)).1.trans (w4_row m ρ c VR h)
theorem w5_bias (h : Agree (W0 m ρ c) VR) : W5 m ρ c (Proc.devRef .tc main_arg9) = VR (Proc.devRef .tc Cert.ReferenceIdeal.main_arg9) :=
  (Cert.HostSteps.aggregate_kept (W4 m ρ c)).2.trans (w4_bias m ρ c VR h)

/-! ## Leaving the second pipeline: its result is the plain program's clamp, transpose and `dot_general` -/

theorem w6_head (h : Agree (W0 m ρ c) VR) : W6 m ρ c (Proc.devRef .tc main_v86) = StableHlo.after (Cert.ReferenceIdeal.Value.ops (F := Ideal)) VR (Proc.devRef .tc Cert.ReferenceIdeal.main_v88) := by
  have e0 : V5 m ρ c main_v85 = StableHlo.after (Cert.ReferenceIdeal.Value.ops (F := Ideal)) VR (Proc.devRef .tc Cert.ReferenceIdeal.main_v85) := w5_aggregate m ρ c VR h
  have e1 : V5 m ρ c main_arg8 = VR (Proc.devRef .tc Cert.ReferenceIdeal.main_arg8) := w5_row m ρ c VR h
  refine (W6_arr m ρ c 2).trans ?_
  rw [Cert.KernelIdeal.Region1.result (V5 m ρ) Cert.Dots.whole1_plain
    Cert.ReferenceIdeal.Facts₀.transposes_S1x128_S128x1_1_0 Cert.ReferenceIdeal.Facts₀.bcast_S_S100000x128 c, e0, e1]
  exact Cert.HostSteps.head_def VR

theorem w6_bias (h : Agree (W0 m ρ c) VR) : W6 m ρ c (Proc.devRef .tc main_arg9) = VR (Proc.devRef .tc Cert.ReferenceIdeal.main_arg9) :=
  (W6_of_ne m ρ c main_arg9 (by decide)).trans (w5_bias m ρ c VR h)

/-! ## The last boundary: the bias added -/

/-- The kernel program's result buffer at its last boundary is the plain program's result. -/
theorem result (h : Agree (W0 m ρ c) VR) : W7 m ρ c (Proc.devRef .tc main_v89) = StableHlo.after (Cert.ReferenceIdeal.Value.ops (F := Ideal)) VR (Proc.devRef .tc Cert.ReferenceIdeal.main_v91) :=
  Cert.HostSteps.biased VR (W6 m ρ c) (w6_head m ρ c VR h) (w6_bias m ρ c VR h)

end Cert.HostChain

end
-- ==== Proof.lean ====
/-
  A recurrent graph-convolution layer with a linear classifier head: the kernel program against the plain program.

  Both programs evolve the layer's weight `W` from `W0` by one step of a gated recurrent cell, normalise the graph
  (self loops, weighted in-degree, inverse square roots gathered at both ends of every edge), form `h = X · W`, aggregate
  `h` along the edges (gather at the sources, scale, scatter-add at the targets), clamp at zero, multiply by the
  classifier row and add its bias. The kernel program computes the two matrix products in pipelines over 20 row tiles
  of 5000 rows on the matrix unit, with bf16-narrowed operands; everything else is the same host operations.

  Over the extended reals narrowing is the identity and a tile's product is the textbook sum, so each pipeline leaves
  the plain program's `dot_general` in its result array (`Region0`, `Region1`, over `RowTiles`); the host operations
  are shared, so the kernel program's last boundary holds the plain program's result (`HostChain`). The frames of the
  kernel programs are the generated ones; the plain program's frame is its generated run with the result dropped; the
  idealization rewrote nothing, so `preserves` is `True`. No law used here needs the inputs finite: the precondition is
  never opened.
-/
import proofs.«119055_j80504866996300_1_alg».proof.Defs
import proofs.«119055_j80504866996300_1_alg».proof.Proof.Gen.Kernel
import proofs.«119055_j80504866996300_1_alg».proof.Proof.Gen.Kernel.Skeleton
import proofs.«119055_j80504866996300_1_alg».proof.Proof.Gen.Kernel.Launch
import proofs.«119055_j80504866996300_1_alg».proof.Proof.Gen.Kernel.Points
import proofs.«119055_j80504866996300_1_alg».proof.Proof.Gen.Kernel.Frame
import proofs.«119055_j80504866996300_1_alg».proof.Proof.Gen.KernelIdeal
import proofs.«119055_j80504866996300_1_alg».proof.Proof.Gen.KernelIdeal.Skeleton
import proofs.«119055_j80504866996300_1_alg».proof.Proof.Gen.KernelIdeal.Launch
import proofs.«119055_j80504866996300_1_alg».proof.Proof.Gen.KernelIdeal.Points
import proofs.«119055_j80504866996300_1_alg».proof.Proof.Gen.KernelIdeal.Frame
import proofs.«119055_j80504866996300_1_alg».proof.Proof.Gen.ReferenceIdeal
import proofs.«119055_j80504866996300_1_alg».proof.Proof.Gen.ReferenceIdeal.Run
import proofs.«119055_j80504866996300_1_alg».proof.Proof.Gen.Pre_finite_inputs
import proofs.«119055_j80504866996300_1_alg».proof.Proof.KernelRun
import proofs.«119055_j80504866996300_1_alg».proof.Proof.RefSide
import proofs.«119055_j80504866996300_1_alg».proof.Proof.HostChain
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The plain program's frame: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the plain program's result term: the kernel program's last boundary holds the plain
    program's fold at its result buffer (`HostChain.result`), which is that term (`RefSide.fold_eq`). -/
theorem algebraic : Cert.algebraic_KernelIdeal_ReferenceIdeal := by
  intro m ρ m' ρ' _ hagree
  have hA : ∀ c : Dev Cert.KernelIdeal.nD,
      Cert.HostSteps.Agree (Cert.KernelIdeal.Gen.W0 m ρ c) (StableHlo.launchContents m' c) := fun c =>
    ⟨(hagree c).1.symm, (hagree c).2.1.symm, (hagree c).2.2.1.symm, (hagree c).2.2.2.1.symm, (hagree c).2.2.2.2.1.symm, (hagree c).2.2.2.2.2.1.symm, (hagree c).2.2.2.2.2.2.1.symm, (hagree c).2.2.2.2.2.2.2.1.symm, (hagree c).2.2.2.2.2.2.2.2.1.symm, (hagree c).2.2.2.2.2.2.2.2.2.symm⟩
  refine ⟨fun c => Cert.ReferenceIdeal.Value.res_main_v91 m' c, ?_, Cert.ReferenceIdeal.Value.run (F := Ideal) m' ρ'⟩
  exact (θ_run Cert.KernelIdeal.defs _ _).mono
    (fun r h c => ⟨(h c).1.trans ((Cert.HostChain.result m ρ c (StableHlo.launchContents m' c) (hA c)).trans
      (Cert.ReferenceIdeal.RefSide.fold_eq m' c)), (h c).2⟩)
    (Cert.KernelIdeal.Named.run_named (F := Ideal) m ρ)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
